-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S32x77 : Shape := ⟨2, ![32, 77]⟩
abbrev S1024x1024 : Shape := ⟨2, ![1024, 1024]⟩
abbrev S1024 : Shape := ⟨1, ![1024]⟩
abbrev S1024x32000 : Shape := ⟨2, ![1024, 32000]⟩
abbrev S32000 : Shape := ⟨1, ![32000]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x32000 : S_.BroadcastsInDim S1024x32000 (![] : Fin 0 → Fin S1024x32000.rank)
  reducesTo_S1024x32000_S_d0_1 : S1024x32000.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg5 : FVec F S1024 .f32) (main_arg6 : FVec F S1024x32000 .f32) (main_arg7 : FVec F S32000 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x32000 .f32 := Host.absf main_arg6
  let main_cst_8 : FVec F S_ .f32 := constant S_ .f32 0x7F800000#32
  let main_v25 : FVec F S1024x32000 .f32 := broadcastInDim S1024x32000 ![] bcast_S_S1024x32000 main_cst_8
  let main_v26 : IVec S1024x32000 1 := cmpf .olt main_v24 main_v25
  let main_c_9 : IVec S_ 1 := constantI S_ 1 1#1
  let main_v27 : IVec S_ 1 := (fun x v => Host.reduce IntOp.andi x v reducesTo_S1024x32000_S_d0_1 h_S_) main_v26 main_c_9
  let main_v28 : IVec S_ 1 := andi main_v23 main_v27
  let main_v29 : FVec F S32000 .f32 := Host.absf main_arg7
  let main_cst_10 : FVec F S_ .f32 := constant S_ .f32 0x7F800000#32
  let main_v30 : FVec F S32000 .f32 := broadcastInDim S32000 ![] bcast_S_S32000 main_cst_10
  let main_v31 : IVec S32000 1 := cmpf .olt main_v29 main_v30
  let main_c_11 : IVec S_ 1 := constantI S_ 1 1#1
  let main_v32 : IVec S_ 1 := (fun x v => Host.reduce IntOp.andi x v reducesTo_S32000_S_d0 h_S_) main_v31 main_c_11
  let main_v33 : IVec S_ 1 := andi main_v28 main_v32
  main_v33

def fn {F : FTy → Type} [FloatOps F] (main_arg0 : FVec F S32x512x1024 .f32) (main_arg1 : IVec S32x77 32) (main_arg2 : FVec F S1024x1024 .f32) (main_arg3 : FVec F S1024 .f32) (main_arg4 : FVec F S1024 .f32) (main_arg5 : FVec F S1024 .f32) (main_arg6 : FVec F S1024x32000 .f32) (main_arg7 : FVec F S32000 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg4
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg5 main_arg6 main_arg7 main_v13 main_v16
-- ==== Kernel.lean ====
abbrev S32x512x1024 : Shape := ⟨3, ![32, 512, 1024]⟩
abbrev S32x77 : Shape := ⟨2, ![32, 77]⟩
abbrev S1024x1024 : Shape := ⟨2, ![1024, 1024]⟩
abbrev S1024 : Shape := ⟨1, ![1024]⟩
abbrev S1024x32000 : Shape := ⟨2, ![1024, 32000]⟩
abbrev S32000 : Shape := ⟨1, ![32000]⟩
abbrev S32x77x1 : Shape := ⟨3, ![32, 77, 1]⟩
abbrev S_ : Shape := ⟨0, ![]⟩
abbrev S1 : Shape := ⟨1, ![1]⟩
abbrev S1x1x1 : Shape := ⟨3, ![1, 1, 1]⟩
abbrev S32x77x1024 : Shape := ⟨3, ![32, 77, 1024]⟩
abbrev S2464x1024 : Shape := ⟨2, ![2464, 1024]⟩
abbrev S2560x1024 : Shape := ⟨2, ![2560, 1024]⟩
abbrev S1x1024 : Shape := ⟨2, ![1, 1024]⟩
abbrev S320x1024 : Shape := ⟨2, ![320, 1024]⟩
abbrev S320 : Shape := ⟨1, ![320]⟩
abbrev S320x1 : Shape := ⟨2, ![320, 1]⟩
abbrev S1x32000 : Shape := ⟨2, ![1, 32000]⟩
abbrev S2560x32000 : Shape := ⟨2, ![2560, 32000]⟩
abbrev S1024x3200 : Shape := ⟨2, ![1024, 3200]⟩
abbrev S1x3200 : Shape := ⟨2, ![1, 3200]⟩
abbrev S320x3200 : Shape := ⟨2, ![320, 3200]⟩
abbrev S2464x32000 : Shape := ⟨2, ![2464, 32000]⟩
abbrev S32x77x32000 : Shape := ⟨3, ![32, 77, 32000]⟩

abbrev nBuf : Space → Nat
  | .hbm => 45
  | .vmem => 16
  | .smem => 0
  | _ => 0

abbrev bufTy : (tb : Table) → Fin (tcTables nBuf tb) → BufTy
  | .hbm, ⟨0, _⟩ => ⟨S32x512x1024, .f32⟩
  | .hbm, ⟨1, _⟩ => ⟨S32x77, .i32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x32000, .f32⟩
  | .hbm, ⟨7, _⟩ => ⟨S32000, .f32⟩
  | .hbm, ⟨8, _⟩ => ⟨S32x77x1, .i32⟩
  | .hbm, ⟨9, _⟩ => ⟨S_, .i32⟩
  | .hbm, ⟨10, _⟩ => ⟨S32x77x1, .i32⟩
  | .hbm, ⟨11, _⟩ => ⟨S32x77x1, .i1⟩
  | .hbm, ⟨12, _⟩ => ⟨S_, .i32⟩
  | .hbm, ⟨13, _⟩ => ⟨S32x77x1, .i32⟩
  | .hbm, ⟨14, _⟩ => ⟨S32x77x1, .i32⟩
  | .hbm, ⟨15, _⟩ => ⟨S32x77x1, .i32⟩
  | .hbm, ⟨16, _⟩ => ⟨S1, .i32⟩
  | .hbm, ⟨17, _⟩ => ⟨S_, .i32⟩
  | .hbm, ⟨18, _⟩ => ⟨S32x77x1, .i32⟩
  | .hbm, ⟨19, _⟩ => ⟨S32x77x1, .i1⟩
  | .hbm, ⟨20, _⟩ => ⟨S1x1x1, .i32⟩
  | .hbm, ⟨21, _⟩ => ⟨S32x77x1, .i32⟩
  | .hbm, ⟨22, _⟩ => ⟨S32x77x1, .i1⟩
  | .hbm, ⟨23, _⟩ => ⟨S32x77x1, .i1⟩
  | .hbm, ⟨24, _⟩ => ⟨S_, .i1⟩
  | .hbm, ⟨25, _⟩ => ⟨S32x77, .i1⟩
  | .hbm, ⟨26, _⟩ => ⟨S32x77x1024, .f32⟩
  | .hbm, ⟨27, _⟩ => ⟨S32x77x1024, .i1⟩
  | .hbm, ⟨28, _⟩ => ⟨S_, .f32⟩
  | .hbm, ⟨29, _⟩ => ⟨S32x77x1024, .f32⟩
  | .hbm, ⟨30, _⟩ => ⟨S32x77x1024, .f32⟩
  | .hbm, ⟨31, _⟩ => ⟨S2464x1024, .f32⟩
  | .hbm, ⟨32, _⟩ => ⟨S_, .i32⟩
  | .hbm, ⟨33, _⟩ => ⟨S_, .f32⟩
  | .hbm, ⟨34, _⟩ => ⟨S2560x1024, .f32⟩
  | .hbm, ⟨35, _⟩ => ⟨S1024x1024, .bf16⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S2560x1024, .bf16⟩
  | .hbm, ⟨40, _⟩ => ⟨S1024x32000, .bf16⟩
  | .hbm, ⟨41, _⟩ => ⟨S1x32000, .f32⟩
  | .hbm, ⟨42, _⟩ => ⟨S2560x32000, .f32⟩
  | .hbm, ⟨43, _⟩ => ⟨S2464x32000, .f32⟩
  | .hbm, ⟨44, _⟩ => ⟨S32x77x32000, .f32⟩
  | .local _ .vmem, ⟨0, _⟩ => ⟨S320x1024, .f32⟩
  | .local _ .vmem, ⟨1, _⟩ => ⟨S320x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S320x1024, .bf16⟩
  | .local _ .vmem, ⟨7, _⟩ => ⟨S320x1024, .bf16⟩
  | .local _ .vmem, ⟨8, _⟩ => ⟨S320x1024, .bf16⟩
  | .local _ .vmem, ⟨9, _⟩ => ⟨S320x1024, .bf16⟩
  | .local _ .vmem, ⟨10, _⟩ => ⟨S1024x3200, .bf16⟩
  | .local _ .vmem, ⟨11, _⟩ => ⟨S1024x3200, .bf16⟩
  | .local _ .vmem, ⟨12, _⟩ => ⟨S1x3200, .f32⟩
  | .local _ .vmem, ⟨13, _⟩ => ⟨S1x3200, .f32⟩
  | .local _ .vmem, ⟨14, _⟩ => ⟨S320x3200, .f32⟩
  | .local _ .vmem, ⟨15, _⟩ => ⟨S320x3200, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_c : Ref sig .tc := ⟨.hbm, 32, rfl⟩
abbrev main_call1_v0 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S320x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S320x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![10, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S320x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x3200 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S320x3200 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  bcast_S32x77_S32x77x1_0_1 : S32x77.BroadcastsInDim S32x77x1 (![0, 1] : Fin 2 → Fin S32x77x1.rank)
  bcast_S_S32x77x1 : S_.BroadcastsInDim S32x77x1 (![] : Fin 0 → Fin S32x77x1.rank)
  bcast_S1_S1x1x1_2 : S1.BroadcastsInDim S1x1x1 (![2] : Fin 1 → Fin S1x1x1.rank)
  bcast_S1x1x1_S32x77x1_0_1_2 : S1x1x1.BroadcastsInDim S32x77x1 (![0, 1, 2] : Fin 3 → Fin S32x77x1.rank)
  reducesTo_S32x77x1_S32x77_d2 : S32x77x1.ReducesTo [2] S32x77
  h_S_ : 0 < S_.numel
  bcast_S32x77_S32x77x1024_0_1 : S32x77.BroadcastsInDim S32x77x1024 (![0, 1] : Fin 2 → Fin S32x77x1024.rank)
  bcast_S_S32x77x1024 : S_.BroadcastsInDim S32x77x1024 (![] : Fin 0 → Fin S32x77x1024.rank)
  shapeCasts_S32x77x1024_S2464x1024 : S32x77x1024.ShapeCasts S2464x1024
  pads_S2464x1024_S2560x1024_0960_000 : S2464x1024.Pads (![0, 0] : Fin 2 → Nat) ![96, 0] ![0, 0] S2560x1024
  bitsLt_bf16_f32 : FTy.bits .bf16 < FTy.bits .f32
  shapeCasts_S1024_S1x1024 : S1024.ShapeCasts S1x1024
  inb_S320x1024_S320x1024_0_0 : ∀ a, (![0, 0] : Fin 2 → Nat) a + S320x1024.size a ≤ S320x1024.size a
  h_S320x1024 : 0 < S320x1024.numel
  shapeCasts_S320x1024_S320x1024 : S320x1024.ShapeCasts S320x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S320x1024 : S1x1024.Broadcasts S320x1024
  reduces_S320x1024_S320 : S320x1024.Reduces [1] S320
  shapeCasts_S320_S320x1 : S320.ShapeCasts S320x1
  broadcasts_S320x1_S320x1024 : S320x1.Broadcasts S320x1024
  packedbf16_S320x1024_S320x1024_0_0 : (Rect.unit (s := S320x1024) ![0, 0] S320x1024.size inb_S320x1024_S320x1024_0_0).PackedRows (EltTy.packing .bf16)
  shapeCasts_S32000_S1x32000 : S32000.ShapeCasts S1x32000
  inb_S1024x3200_S1024x3200_0_0 : ∀ a, (![0, 0] : Fin 2 → Nat) a + S1024x3200.size a ≤ S1024x3200.size a
  h_S1024x3200 : 0 < S1024x3200.numel
  shapeCasts_S1024x3200_S1024x3200 : S1024x3200.ShapeCasts S1024x3200
  inb_S1x3200_S1x3200_0_0 : ∀ a, (![0, 0] : Fin 2 → Nat) a + S1x3200.size a ≤ S1x3200.size a
  h_S1x3200 : 0 < S1x3200.numel
  shapeCasts_S1x3200_S1x3200 : S1x3200.ShapeCasts S1x3200
  broadcasts_S1x3200_S320x3200 : S1x3200.Broadcasts S320x3200
  inb_S320x3200_S320x3200_0_0 : ∀ a, (![0, 0] : Fin 2 → Nat) a + S320x3200.size a ≤ S320x3200.size a
  h_S320x3200 : 0 < S320x3200.numel
  slices_S2560x32000_S2464x32000_0_0 : S2560x32000.Slices ![0, 0] S2464x32000
  shapeCasts_S2464x32000_S32x77x32000 : S2464x32000.ShapeCasts S32x77x32000
  gather_S32x512x1024_S32x77x1_S32x77x1024_2_1_0_0_1_2_111024_wf : GatherDims.WF S32x512x1024 S32x77x1 S32x77x1024 [2] [1] [0] [1] [0] 2 ![1, 1, 1024]
  dot_S320x1024_S1024x1024_S320x1024_1_0_0_1_n_n_wf : DotDims.WF S320x1024 S1024x1024 S320x1024 [1] [0] [0] [1] [] []
  dot_S320x1024_S1024x3200_S320x3200_1_0_0_1_n_n_wf : DotDims.WF S320x1024 S1024x3200 S320x3200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S320x1024.size a ≤ S2560x1024.size a
  hwx0_0 : ∀ i : grid0.Coords, EltTy.bits .f32 = 32 ∨ (Rect.block (s := S2560x1024) S320x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S320x1024.size a ≤ S2560x1024.size a
  hwx0_5 : ∀ i : grid0.Coords, EltTy.bits .bf16 = 32 ∨ (Rect.block (s := S2560x1024) S320x1024.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S320x1024.size a ≤ S2560x1024.size a
  hwx1_0 : ∀ i : grid1.Coords, EltTy.bits .bf16 = 32 ∨ (Rect.block (s := S2560x1024) S320x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x3200.size a ≤ S1024x32000.size a
  hwx1_1 : ∀ i : grid1.Coords, EltTy.bits .bf16 = 32 ∨ (Rect.block (s := S1024x32000) S1024x3200.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x3200.size a ≤ S1x32000.size a
  hwx1_2 : ∀ i : grid1.Coords, EltTy.bits .f32 = 32 ∨ (Rect.block (s := S1x32000) S1x3200.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S320x3200.size a ≤ S2560x32000.size a
  hwx1_3 : ∀ i : grid1.Coords, EltTy.bits .f32 = 32 ∨ (Rect.block (s := S2560x32000) S320x3200.size (cc1_transform_3 i) (hinb1_3 i)).WholeWords (EltTy.packing .f32)

variable [Facts₀]

def gather_S32x512x1024_S32x77x1_S32x77x1024_2_1_0_0_1_2_111024 : GatherDims S32x512x1024 S32x77x1 S32x77x1024 where
  offsetDims := [2]
  collapsedSliceDims := [1]
  operandBatchingDims := [0]
  startIndicesBatchingDims := [0]
  startIndexMap := [1]
  indexVectorDim := 2
  sliceSizes := ![1, 1, 1024]
  wf := gather_S32x512x1024_S32x77x1_S32x77x1024_2_1_0_0_1_2_111024_wf
def dot_S320x1024_S1024x1024_S320x1024_1_0_0_1_n_n : DotDims S320x1024 S1024x1024 S320x1024 where
  lhsContracting := [1]
  rhsContracting := [0]
  lhsNonContracting := [0]
  rhsNonContracting := [1]
  lhsBatch := []
  rhsBatch := []
  wf := dot_S320x1024_S1024x1024_S320x1024_1_0_0_1_n_n_wf
def dot_S320x1024_S1024x3200_S320x3200_1_0_0_1_n_n : DotDims S320x1024 S1024x3200 S320x3200 where
  lhsContracting := [1]
  rhsContracting := [0]
  lhsNonContracting := [0]
  rhsNonContracting := [1]
  lhsBatch := []
  rhsBatch := []
  wf := dot_S320x1024_S1024x3200_S320x3200_1_0_0_1_n_n_wf

abbrev win0_0 : Pipeline.Window sig grid0 :=
  Pipeline.Window.ofSpec (Memref.whole main_v3) S320x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S320x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8) S320x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S1024x3200.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S1x3200.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S320x3200.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x512x1024 : Shape := ⟨3, ![32, 512, 1024]⟩
abbrev S32x77 : Shape := ⟨2, ![32, 77]⟩
abbrev S1024x1024 : Shape := ⟨2, ![1024, 1024]⟩
abbrev S1024 : Shape := ⟨1, ![1024]⟩
abbrev S1024x32000 : Shape := ⟨2, ![1024, 32000]⟩
abbrev S32000 : Shape := ⟨1, ![32000]⟩
abbrev S32x77x1 : Shape := ⟨3, ![32, 77, 1]⟩
abbrev S_ : Shape := ⟨0, ![]⟩
abbrev S1 : Shape := ⟨1, ![1]⟩
abbrev S1x1x1 : Shape := ⟨3, ![1, 1, 1]⟩
abbrev S32x77x1024 : Shape := ⟨3, ![32, 77, 1024]⟩
abbrev S1x1x1024 : Shape := ⟨3, ![1, 1, 1024]⟩
abbrev S32x77x32000 : Shape := ⟨3, ![32, 77, 32000]⟩
abbrev S1x1x32000 : Shape := ⟨3, ![1, 1, 32000]⟩

abbrev nBuf : Space → Nat
  | .hbm => 71
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S32x77, .i32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x32000, .f32⟩
  | .hbm, ⟨7, _⟩ => ⟨S32000, .f32⟩
  | .hbm, ⟨8, _⟩ => ⟨S32x77x1, .i32⟩
  | .hbm, ⟨9, _⟩ => ⟨S_, .i32⟩
  | .hbm, ⟨10, _⟩ => ⟨S32x77x1, .i32⟩
  | .hbm, ⟨11, _⟩ => ⟨S32x77x1, .i1⟩
  | .hbm, ⟨12, _⟩ => ⟨S_, .i32⟩
  | .hbm, ⟨13, _⟩ => ⟨S32x77x1, .i32⟩
  | .hbm, ⟨14, _⟩ => ⟨S32x77x1, .i32⟩
  | .hbm, ⟨15, _⟩ => ⟨S32x77x1, .i32⟩
  | .hbm, ⟨16, _⟩ => ⟨S1, .i32⟩
  | .hbm, ⟨17, _⟩ => ⟨S_, .i32⟩
  | .hbm, ⟨18, _⟩ => ⟨S32x77x1, .i32⟩
  | .hbm, ⟨19, _⟩ => ⟨S32x77x1, .i1⟩
  | .hbm, ⟨20, _⟩ => ⟨S1x1x1, .i32⟩
  | .hbm, ⟨21, _⟩ => ⟨S32x77x1, .i32⟩
  | .hbm, ⟨22, _⟩ => ⟨S32x77x1, .i1⟩
  | .hbm, ⟨23, _⟩ => ⟨S32x77x1, .i1⟩
  | .hbm, ⟨24, _⟩ => ⟨S_, .i1⟩
  | .hbm, ⟨25, _⟩ => ⟨S32x77, .i1⟩
  | .hbm, ⟨26, _⟩ => ⟨S32x77x1024, .f32⟩
  | .hbm, ⟨27, _⟩ => ⟨S32x77x1024, .i1⟩
  | .hbm, ⟨28, _⟩ => ⟨S_, .f32⟩
  | .hbm, ⟨29, _⟩ => ⟨S32x77x1024, .f32⟩
  | .hbm, ⟨30, _⟩ => ⟨S32x77x1024, .f32⟩
  | .hbm, ⟨31, _⟩ => ⟨S32x77x1024, .f32⟩
  | .hbm, ⟨32, _⟩ => ⟨S1x1x1024, .f32⟩
  | .hbm, ⟨33, _⟩ => ⟨S32x77x1024, .f32⟩
  | .hbm, ⟨34, _⟩ => ⟨S32x77x1024, .f32⟩
  | .hbm, ⟨35, _⟩ => ⟨S_, .f32⟩
  | .hbm, ⟨36, _⟩ => ⟨S32x77x1024, .f32⟩
  | .hbm, ⟨37, _⟩ => ⟨S32x77x1024, .f32⟩
  | .hbm, ⟨38, _⟩ => ⟨S_, .f32⟩
  | .hbm, ⟨39, _⟩ => ⟨S32x77, .f32⟩
  | .hbm, ⟨40, _⟩ => ⟨S32x77x1, .f32⟩
  | .hbm, ⟨41, _⟩ => ⟨S_, .f32⟩
  | .hbm, ⟨42, _⟩ => ⟨S32x77x1, .f32⟩
  | .hbm, ⟨43, _⟩ => ⟨S32x77x1, .f32⟩
  | .hbm, ⟨44, _⟩ => ⟨S32x77x1024, .f32⟩
  | .hbm, ⟨45, _⟩ => ⟨S32x77x1024, .f32⟩
  | .hbm, ⟨46, _⟩ => ⟨S32x77x1024, .f32⟩
  | .hbm, ⟨47, _⟩ => ⟨S_, .f32⟩
  | .hbm, ⟨48, _⟩ => ⟨S32x77, .f32⟩
  | .hbm, ⟨49, _⟩ => ⟨S32x77x1, .f32⟩
  | .hbm, ⟨50, _⟩ => ⟨S_, .f32⟩
  | .hbm, ⟨51, _⟩ => ⟨S32x77x1, .f32⟩
  | .hbm, ⟨52, _⟩ => ⟨S32x77x1, .f32⟩
  | .hbm, ⟨53, _⟩ => ⟨S32x77x1024, .f32⟩
  | .hbm, ⟨54, _⟩ => ⟨S32x77x1024, .f32⟩
  | .hbm, ⟨55, _⟩ => ⟨S_, .f32⟩
  | .hbm, ⟨56, _⟩ => ⟨S32x77x1, .f32⟩
  | .hbm, ⟨57, _⟩ => ⟨S32x77x1, .f32⟩
  | .hbm, ⟨58, _⟩ => ⟨S32x77x1, .f32⟩
  | .hbm, ⟨59, _⟩ => ⟨S32x77x1024, .f32⟩
  | .hbm, ⟨60, _⟩ => ⟨S32x77x1024, .f32⟩
  | .hbm, ⟨61, _⟩ => ⟨S1x1x1024, .f32⟩
  | .hbm, ⟨62, _⟩ => ⟨S32x77x1024, .f32⟩
  | .hbm, ⟨63, _⟩ => ⟨S32x77x1024, .f32⟩
  | .hbm, ⟨64, _⟩ => ⟨S1x1x1024, .f32⟩
  | .hbm, ⟨65, _⟩ => ⟨S32x77x1024, .f32⟩
  | .hbm, ⟨66, _⟩ => ⟨S32x77x1024, .f32⟩
  | .hbm, ⟨67, _⟩ => ⟨S32x77x32000, .f32⟩
  | .hbm, ⟨68, _⟩ => ⟨S1x1x32000, .f32⟩
  | .hbm, ⟨69, _⟩ => ⟨S32x77x32000, .f32⟩
  | .hbm, ⟨70, _⟩ => ⟨S32x77x32000, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_c_1 : Ref sig .tc := ⟨.hbm, 16, rfl⟩
abbrev main_call0_c_2 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_c_3 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_call1_cst : Ref sig .tc := ⟨.hbm, 35, rfl⟩
abbrev main_call1_v0 : Ref sig .tc := ⟨.hbm, 36, rfl⟩
abbrev main_v6 : Ref sig .tc := ⟨.hbm, 37, rfl⟩
abbrev main_cst : Ref sig .tc := ⟨.hbm, 38, rfl⟩
abbrev main_v7 : Ref sig .tc := ⟨.hbm, 39, rfl⟩
abbrev main_v8 : Ref sig .tc := ⟨.hbm, 40, rfl⟩
abbrev main_cst_0 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_cst_1 : Ref sig .tc := ⟨.hbm, 47, rfl⟩
abbrev main_v14 : Ref sig .tc := ⟨.hbm, 48, rfl⟩
abbrev main_v15 : Ref sig .tc := ⟨.hbm, 49, rfl⟩
abbrev main_cst_2 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_cst_3 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩

abbrev nD : Nat := 1
abbrev τ : Topo := Topo.v7x

variable {F : FTy → Type} [FloatOps F]

class Facts₀ : Prop where
  bcast_S32x77_S32x77x1_0_1 : S32x77.BroadcastsInDim S32x77x1 (![0, 1] : Fin 2 → Fin S32x77x1.rank)
  bcast_S_S32x77x1 : S_.BroadcastsInDim S32x77x1 (![] : Fin 0 → Fin S32x77x1.rank)
  bcast_S1_S1x1x1_2 : S1.BroadcastsInDim S1x1x1 (![2] : Fin 1 → Fin S1x1x1.rank)
  bcast_S1x1x1_S32x77x1_0_1_2 : S1x1x1.BroadcastsInDim S32x77x1 (![0, 1, 2] : Fin 3 → Fin S32x77x1.rank)
  reducesTo_S32x77x1_S32x77_d2 : S32x77x1.ReducesTo [2] S32x77
  h_S_ : 0 < S_.numel
  bcast_S32x77_S32x77x1024_0_1 : S32x77.BroadcastsInDim S32x77x1024 (![0, 1] : Fin 2 → Fin S32x77x1024.rank)
  bcast_S_S32x77x1024 : S_.BroadcastsInDim S32x77x1024 (![] : Fin 0 → Fin S32x77x1024.rank)
  bcast_S1024_S1x1x1024_2 : S1024.BroadcastsInDim S1x1x1024 (![2] : Fin 1 → Fin S1x1x1024.rank)
  bcast_S1x1x1024_S32x77x1024_0_1_2 : S1x1x1024.BroadcastsInDim S32x77x1024 (![0, 1, 2] : Fin 3 → Fin S32x77x1024.rank)
  reducesTo_S32x77x1024_S32x77_d2 : S32x77x1024.ReducesTo [2] S32x77
  bcast_S32x77x1_S32x77x1024_0_1_2 : S32x77x1.BroadcastsInDim S32x77x1024 (![0, 1, 2] : Fin 3 → Fin S32x77x1024.rank)
  bcast_S32000_S1x1x32000_2 : S32000.BroadcastsInDim S1x1x32000 (![2] : Fin 1 → Fin S1x1x32000.rank)
  bcast_S1x1x32000_S32x77x32000_0_1_2 : S1x1x32000.BroadcastsInDim S32x77x32000 (![0, 1, 2] : Fin 3 → Fin S32x77x32000.rank)
  gather_S32x512x1024_S32x77x1_S32x77x1024_2_1_0_0_1_2_111024_wf : GatherDims.WF S32x512x1024 S32x77x1 S32x77x1024 [2] [1] [0] [1] [0] 2 ![1, 1, 1024]
  dot_S32x77x1024_S1024x1024_S32x77x1024_2_0_01_1_n_n_wf : DotDims.WF S32x77x1024 S1024x1024 S32x77x1024 [2] [0] [0, 1] [1] [] []
  dot_S32x77x1024_S1024x32000_S32x77x32000_2_0_01_1_n_n_wf : DotDims.WF S32x77x1024 S1024x32000 S32x77x32000 [2] [0] [0, 1] [1] [] []

variable [Facts₀]

def gather_S32x512x1024_S32x77x1_S32x77x1024_2_1_0_0_1_2_111024 : GatherDims S32x512x1024 S32x77x1 S32x77x1024 where
  offsetDims := [2]
  collapsedSliceDims := [1]
  operandBatchingDims := [0]
  startIndicesBatchingDims := [0]
  startIndexMap := [1]
  indexVectorDim := 2
  sliceSizes := ![1, 1, 1024]
  wf := gather_S32x512x1024_S32x77x1_S32x77x1024_2_1_0_0_1_2_111024_wf
def dot_S32x77x1024_S1024x1024_S32x77x1024_2_0_01_1_n_n : DotDims S32x77x1024 S1024x1024 S32x77x1024 where
  lhsContracting := [2]
  rhsContracting := [0]
  lhsNonContracting := [0, 1]
  rhsNonContracting := [1]
  lhsBatch := []
  rhsBatch := []
  wf := dot_S32x77x1024_S1024x1024_S32x77x1024_2_0_01_1_n_n_wf
def dot_S32x77x1024_S1024x32000_S32x77x32000_2_0_01_1_n_n : DotDims S32x77x1024 S1024x32000 S32x77x32000 where
  lhsContracting := [2]
  rhsContracting := [0]
  lhsNonContracting := [0, 1]
  rhsNonContracting := [1]
  lhsBatch := []
  rhsBatch := []
  wf := dot_S32x77x1024_S1024x32000_S32x77x32000_2_0_01_1_n_n_wf

class Facts : Prop extends Facts₀ where

variable [Facts]
-- ==== Proof.HostReads.lean ====
/-
  What the host operations of the kernel's program hand to each pallas_call, and what they make of the last one's
  output, as operations of the launch arrays.

  Before the first call: the token rows are gathered from the activations by the position indices (the same chain
  of operations the reference applies, kept as one function), laid out as 2464 rows and padded with 96 rows; the
  first weight is cast; bias, scale and shift become one-row matrices. Between the calls: the second weight is cast
  and its bias becomes a one-row matrix, while the hidden array is exactly what the first call left. After the
  second call: its first 2464 rows are laid out as 32 × 77 token rows.
-/
import proofs.«162375_j79663053406608_1_alg».proof.Proof.Gen.KernelIdeal.Frame
import proofs.«162375_j79663053406608_1_alg».proof.Proof.Gen.ReferenceIdeal.Read
import Idealize.ShloMosaic.Lib.StableHlo.Run

noncomputable section

namespace Cert.KernelIdeal.HostReads

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg)

/-! ## The arrays by their literal types -/

/-- The activations, the position indices and the six parameter arrays, as launched. -/
abbrev acts (c : Dev nD) : S32x512x1024.Idx → EReal := m ((c : Thread nD τ).loc main_arg0)
abbrev posn (c : Dev nD) : S32x77.Idx → BitVec 32 := m ((c : Thread nD τ).loc main_arg1)
abbrev wgt1 (c : Dev nD) : S1024x1024.Idx → EReal := m ((c : Thread nD τ).loc main_arg2)
abbrev bias1 (c : Dev nD) : S1024.Idx → EReal := m ((c : Thread nD τ).loc main_arg3)
abbrev scale (c : Dev nD) : S1024.Idx → EReal := m ((c : Thread nD τ).loc main_arg4)
abbrev shift (c : Dev nD) : S1024.Idx → EReal := m ((c : Thread nD τ).loc main_arg5)
abbrev wgt2 (c : Dev nD) : S1024x32000.Idx → EReal := m ((c : Thread nD τ).loc main_arg6)
abbrev bias2 (c : Dev nD) : S32000.Idx → EReal := m ((c : Thread nD τ).loc main_arg7)

/-- The gathered token rows: the reference's own gathering chain applied to the launch arrays. -/
abbrev rows (c : Dev nD) : S32x77x1024.Idx → EReal :=
  Cert.ReferenceIdeal.Read.val_main_v1 (F := Ideal) (m ((c : Thread nD τ).loc main_arg0)) (m ((c : Thread nD τ).loc main_arg1))

/-- What the first call is entered with. -/
abbrev tok (c : Dev nD) : S2560x1024.Idx → EReal := V5 m ρ c main_v3
abbrev w1 (c : Dev nD) : S1024x1024.Idx → EReal := V5 m ρ c main_v4
abbrev b1 (c : Dev nD) : S1x1024.Idx → EReal := V5 m ρ c main_v5
abbrev gam (c : Dev nD) : S1x1024.Idx → EReal := V5 m ρ c main_v6
abbrev bet (c : Dev nD) : S1x1024.Idx → EReal := V5 m ρ c main_v7
/-- What the second call is entered with. -/
abbrev hidn (c : Dev nD) : S2560x1024.Idx → EReal := V7 m ρ c main_v8
abbrev w2 (c : Dev nD) : S1024x32000.Idx → EReal := V7 m ρ c main_v9
abbrev b2 (c : Dev nD) : S1x32000.Idx → EReal := V7 m ρ c main_v10
/-- What the second call leaves, and the program's result. -/
abbrev outp (c : Dev nD) : S2560x32000.Idx → EReal := W8 m ρ c (Proc.devRef .tc main_v11)
abbrev res (c : Dev nD) : S32x77x32000.Idx → EReal := W9 m ρ c (Proc.devRef .tc main_v13)

/-! ## Before the first call -/

set_option maxHeartbeats 4000000 in
set_option maxRecDepth 8192 in
/-- The token array: the gathered rows as 2464 rows, padded with 96 rows of the converted integer zero. -/
theorem tok_eq (c : Dev nD) :
    tok m ρ c = pad S2560x1024 ![0, 0] ![96, 0] ![0, 0]
      (shapeCast S2464x1024 (rows m c) shapeCasts_S32x77x1024_S2464x1024)
      (sitofp (F := Ideal) .f32 (constantI S_ 32 0#32)) pads_S2464x1024_S2560x1024_0960_000 h_S_ := by
  show StableHlo.after hostOps0_4 (W4 m ρ c) (Proc.devRef .tc main_v3) = _
  dsimp only [W4, W3, W2, W1, W0]
  after_results_simp
  rfl

/-- The first weight, cast to the narrower format: on the extended reals the cast is the identity, entry by entry. -/
theorem w1_eq (c : Dev nD) : w1 m ρ c = wgt1 m c := by
  show StableHlo.after hostOps0_4 (W4 m ρ c) (Proc.devRef .tc main_v4) = _
  dsimp only [W4, W3, W2, W1, W0]
  after_results <;> rfl

/-- Bias, scale and shift as one-row matrices. -/
theorem b1_eq (c : Dev nD) : b1 m ρ c = shapeCast S1x1024 (bias1 m c) shapeCasts_S1024_S1x1024 := by
  show StableHlo.after hostOps0_4 (W4 m ρ c) (Proc.devRef .tc main_v5) = _
  dsimp only [W4, W3, W2, W1, W0]
  after_results <;> rfl
theorem gam_eq (c : Dev nD) : gam m ρ c = shapeCast S1x1024 (scale m c) shapeCasts_S1024_S1x1024 := by
  show StableHlo.after hostOps0_4 (W4 m ρ c) (Proc.devRef .tc main_v6) = _
  dsimp only [W4, W3, W2, W1, W0]
  after_results <;> rfl
theorem bet_eq (c : Dev nD) : bet m ρ c = shapeCast S1x1024 (shift m c) shapeCasts_S1024_S1x1024 := by
  show StableHlo.after hostOps0_4 (W4 m ρ c) (Proc.devRef .tc main_v7) = _
  dsimp only [W4, W3, W2, W1, W0]
  after_results <;> rfl

/-! ## Between the calls -/

/-- The hidden array the second call reads is what the first call's write-backs left: no host operation between the
    calls writes it. -/
theorem hidn_eq (c : Dev nD) : hidn m ρ c = (dat0 (V5 m ρ) c).arrAt 5 cfg0.N := by
  have h1 : hidn m ρ c = W6 m ρ c (Proc.devRef .tc main_v8) := by
    show StableHlo.after hostOps1 (W6 m ρ c) (Proc.devRef .tc main_v8) = _
    after_results <;> rfl
  rw [h1]
  exact W6_arr m ρ c 5

/-- The second weight, cast: no host operation before it and no block of the first call writes the launch array. -/
theorem w2_eq (c : Dev nD) : w2 m ρ c = wgt2 m c := by
  have h1 : w2 m ρ c = W6 m ρ c (Proc.devRef .tc main_arg6) := by
    show StableHlo.after hostOps1 (W6 m ρ c) (Proc.devRef .tc main_v9) = _
    after_results <;> rfl
  rw [h1, W6_of_ne m ρ c main_arg6 (by decide)]
  show StableHlo.after hostOps0_4 (W4 m ρ c) (Proc.devRef .tc main_arg6) = _
  dsimp only [W4, W3, W2, W1, W0]
  after_results <;> rfl

/-- The second bias as a one-row matrix. -/
theorem b2_eq (c : Dev nD) : b2 m ρ c = shapeCast S1x32000 (bias2 m c) shapeCasts_S32000_S1x32000 := by
  have h1 : b2 m ρ c = shapeCast S1x32000 (W6 m ρ c (Proc.devRef .tc main_arg7)) shapeCasts_S32000_S1x32000 := by
    show StableHlo.after hostOps1 (W6 m ρ c) (Proc.devRef .tc main_v10) = _
    after_results <;> rfl
  rw [h1, W6_of_ne m ρ c main_arg7 (by decide)]
  refine congrArg (shapeCast S1x32000 · shapeCasts_S32000_S1x32000) ?_
  show StableHlo.after hostOps0_4 (W4 m ρ c) (Proc.devRef .tc main_arg7) = _
  dsimp only [W4, W3, W2, W1, W0]
  after_results <;> rfl

/-! ## After the second call -/

/-- The second call's output array is what its write-backs left. -/
theorem outp_eq (c : Dev nD) : outp m ρ c = (dat1 (V7 m ρ) c).arrAt 3 cfg1.N :=
  W8_arr m ρ c 3

/-- The result: the first 2464 rows of that array, as 32 × 77 token rows. -/
theorem res_eq (c : Dev nD) :
    res m ρ c = shapeCast S32x77x32000
      (extractStridedSlice S2464x32000 ![0, 0] (outp m ρ c) slices_S2560x32000_S2464x32000_0_0)
      shapeCasts_S2464x32000_S32x77x32000 := by
  show StableHlo.after hostOps2 (W8 m ρ c) (Proc.devRef .tc main_v13) = _
  after_results <;> rfl

end Cert.KernelIdeal.HostReads

end
-- ==== Proof.Spec.lean ====
/-
  What both programs compute, row by row, on the extended reals.

  One gathered token row `x : Fin 1024 → EReal` goes through a linear layer with ReLU, a layer normalisation over the
  1024 hidden coordinates, and a projection onto the 32000 vocabulary entries:

    hid x W1 b1 j     = max (∑ k, x k · W1 k j + b1 j) 0
    rowMean h         = (∑ j, h j) / 1024
    lnOut h γ β j     = ((h j − rowMean h) · rsqrt (rowMean (fun t => (h t − rowMean h)²) + ε)) · γ j + β j
    projRow y W2 b2 v = ∑ k, y k · W2 k v + b2 v

  The three float literals (0, 1024 and ε, the single-precision word nearest 1e-5) stay as the words both programs
  print: the same word on both sides is never evaluated. Nothing here mentions a tile, a padded row or a memory.
-/
import Idealize.ShloMosaic.PureOps.Ideal
import Idealize.ShloMosaic.Lib.ValueIdx

noncomputable section

namespace Cert.Spec

open Idealize.ShloMosaic

/-- The ReLU threshold, the word of `0.0`. -/
abbrev zeroW : EReal := Ideal.ofBits .f32 0x00000000#32
/-- The row length as a float, the word of `1024.0`. -/
abbrev lenW : EReal := Ideal.ofBits .f32 0x44800000#32
/-- The variance offset, the word nearest `1e-5`. -/
abbrev epsW : EReal := Ideal.ofBits .f32 0x3727C5AC#32

/-- Hidden coordinate `j` of a token row: the row times column `j` of the first weight matrix, plus the bias,
    clamped below at zero. -/
def hid (x : Fin 1024 → EReal) (W1 : Fin 1024 → Fin 1024 → EReal) (b1 : Fin 1024 → EReal) (j : Fin 1024) : EReal :=
  max ((∑ k : Fin 1024, x k * W1 k j) + b1 j) zeroW

/-- The mean of a row of 1024 entries: their sum divided by the float 1024. -/
def rowMean (h : Fin 1024 → EReal) : EReal :=
  Ideal.div (∑ j : Fin 1024, h j) lenW

/-- Layer normalisation of a row at coordinate `j`: centred, scaled by the reciprocal root of the variance plus ε,
    then by `γ j`, and shifted by `β j`, in that order of operations. -/
def lnOut (h γ β : Fin 1024 → EReal) (j : Fin 1024) : EReal :=
  ((h j - rowMean h) * Ideal.rsqrt (rowMean (fun t => (h t - rowMean h) * (h t - rowMean h)) + epsW)) * γ j + β j

/-- The normalised hidden row of a token row. -/
def lnRow (x : Fin 1024 → EReal) (W1 : Fin 1024 → Fin 1024 → EReal) (b1 γ β : Fin 1024 → EReal) : Fin 1024 → EReal :=
  lnOut (hid x W1 b1) γ β

/-- Vocabulary entry `v` of a normalised row: the row times column `v` of the second weight matrix, plus the bias. -/
def projRow (y : Fin 1024 → EReal) (W2 : Fin 1024 → Fin 32000 → EReal) (b2 : Fin 32000 → EReal) (v : Fin 32000) : EReal :=
  (∑ k : Fin 1024, y k * W2 k v) + b2 v

/-- Two rows that agree entry by entry have the same normalised hidden row. -/
theorem lnRow_congr {x x' : Fin 1024 → EReal} (hx : ∀ k, x k = x' k) (W1 : Fin 1024 → Fin 1024 → EReal)
    (b1 γ β : Fin 1024 → EReal) : lnRow x W1 b1 γ β = lnRow x' W1 b1 γ β := by
  rw [show x = x' from funext hx]

/-- Two rows that agree entry by entry project to the same vocabulary row. -/
theorem projRow_congr {y y' : Fin 1024 → EReal} (hy : ∀ k, y k = y' k) (W2 : Fin 1024 → Fin 32000 → EReal)
    (b2 : Fin 32000 → EReal) (v : Fin 32000) : projRow y W2 b2 v = projRow y' W2 b2 v := by
  rw [show y = y' from funext hy]

end Cert.Spec

end
-- ==== Proof.LibLayout.lean ====
/-
  General reading lemmas for layout operations between a vector and a matrix with a unit axis, over any extents:
  a column broadcast over the columns, a vector made a column or a row, a column or a row broadcast to a matrix
  on the host, and the host's rows-by-columns product as a sum over the shared coordinate.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a, 1]` array broadcast to `[a, b]` reads, at `(p, c)`, the operand's one entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- The host's broadcast of an `[a]` array along axis 0 of `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- The host's broadcast of an `[a, 1]` array to `[a, b]`, axes kept, reads at `(p, c)` the operand's entry of row `p`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- The host's broadcast of a `[b]` array along axis 1 of `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- The host's broadcast of a `[1, b]` array to `[a, b]`, axes kept, reads at `(p, c)` the operand's one row at `c`. -/
theorem broadcastInDim_1b_ab_apply {a b : ℕ} (x : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h x (ix2 p c) = x (ix2 (0 : Fin 1) c) := by
  refine broadcastInDim_apply _ h x (ix2 p c) (ix2 (0 : Fin 1) c) fun ax => ?_
  match ax with
  | ⟨0, _⟩ => rfl
  | ⟨1, _⟩ =>
    show c.val = if b = 1 then 0 else c.val
    split
    · have := c.isLt; omega
    · rfl

/-- The host's broadcast of a scalar reads, at any index, the scalar. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

/-- The host's rows-by-columns product, read at (a, b): `∑ c, A[a, c] · B[c, b]`, whatever the schedule key. -/
theorem dotGeneral_plain_apply {m k n : Nat} {φ₁ φ₂ : FTy} (prec : Option ContractPrecision) (sched : HostSchedule)
    (A : FVec Ideal ⟨2, ![m, k]⟩ φ₁) (B : FVec Ideal ⟨2, ![k, n]⟩ φ₂) (a : Fin m) (b : Fin n) :
    FloatOps.dotGeneral (DotDims.plain m k n) prec sched A B (ix2 a b)
      = ∑ c : Fin k, A (ix2 a c) * B (ix2 c b) := by
  -- the sum over the contraction index set, which has one axis of extent k
  rw [Ideal.dotGeneral_apply, ← Equiv.sum_comp (contrEquiv1 (DotDims.plain m k n) k rfl rfl).symm]
  refine Finset.sum_congr rfl fun c _ => ?_
  have hc := contrEquiv1_symm_val (DotDims.plain m k n) k rfl rfl c
  -- the left operand is read at (a, c), the right one at (c, b)
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end Cert.LibLayout

end
-- ==== Proof.Body0.lean ====
/-
  The first kernel's stored block at an entry. The body computes, for a 320 × 1024 block of token rows:
  the hidden block  H = max (X · W1 + b1, 0)  (the product accumulated from zero, the bias row repeated over the rows),
  the row means  m = (lane sum of H) / 1024  kept as a 320 × 1 column and repeated along the rows,
  the centred block  D = H − m,  the variance column  s = (lane sum of D · D) / 1024,
  and the result  ((D · rsqrt (s + ε)) · γ) + β  with the γ and β rows repeated over the rows.
  Read at entry (r, j) this is the layer normalisation of the hidden row of token row r, at coordinate j.
-/
import proofs.«162375_j79663053406608_1_alg».proof.Proof.Gen.KernelIdeal.Skeleton
import proofs.«162375_j79663053406608_1_alg».proof.Proof.Spec
import proofs.«162375_j79663053406608_1_alg».proof.Proof.LibLayout
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-! ### The block product read at an entry

The product's dimension numbers contract the left operand's axis 1 with the right operand's axis 0 and keep the left
operand's axis 0 and the right operand's axis 1. So at output entry `(i 0, i 1)` and contraction coordinate `q` the left
operand is read at `(i 0, q)` and the right operand at `(q, i 1)`: four facts, one per operand axis. -/

/-- The left operand's row is the output's row (a kept axis). -/
theorem lhs_hid_0 (i : S320x1024.Idx) (q : dot_S320x1024_S1024x1024_S320x1024_1_0_0_1_n_n.contr.Idx) :
    (dot_S320x1024_S1024x1024_S320x1024_1_0_0_1_n_n.lhsIdx i q 0).val = (i 0).val := by
  unfold DotDims.lhsIdx
  rw [dif_neg (show ¬(0 : Fin S320x1024.rank) ∈ dot_S320x1024_S1024x1024_S320x1024_1_0_0_1_n_n.lhsBatch by decide), dif_pos (show (0 : Fin S320x1024.rank) ∈ dot_S320x1024_S1024x1024_S320x1024_1_0_0_1_n_n.lhsNonContracting by decide)]
  rfl

/-- The left operand's column is the contraction coordinate (its one contracted axis). -/
theorem lhs_hid_1 (i : S320x1024.Idx) (q : dot_S320x1024_S1024x1024_S320x1024_1_0_0_1_n_n.contr.Idx) :
    (dot_S320x1024_S1024x1024_S320x1024_1_0_0_1_n_n.lhsIdx i q 1).val = (q ⟨0, by decide⟩).val :=
  dot_S320x1024_S1024x1024_S320x1024_1_0_0_1_n_n.lhsIdx_val_of_single rfl i q

/-- The right operand's row is the contraction coordinate (its one contracted axis). -/
theorem rhs_hid_0 (i : S320x1024.Idx) (q : dot_S320x1024_S1024x1024_S320x1024_1_0_0_1_n_n.contr.Idx) :
    (dot_S320x1024_S1024x1024_S320x1024_1_0_0_1_n_n.rhsIdx i q 0).val = (q ⟨0, by decide⟩).val :=
  dot_S320x1024_S1024x1024_S320x1024_1_0_0_1_n_n.rhsIdx_val_of_single rfl i q

/-- The right operand's column is the output's column (a kept axis). -/
theorem rhs_hid_1 (i : S320x1024.Idx) (q : dot_S320x1024_S1024x1024_S320x1024_1_0_0_1_n_n.contr.Idx) :
    (dot_S320x1024_S1024x1024_S320x1024_1_0_0_1_n_n.rhsIdx i q 1).val = (i 1).val := by
  unfold DotDims.rhsIdx
  rw [dif_neg (show ¬(1 : Fin S1024x1024.rank) ∈ dot_S320x1024_S1024x1024_S320x1024_1_0_0_1_n_n.rhsBatch by decide), dif_pos (show (1 : Fin S1024x1024.rank) ∈ dot_S320x1024_S1024x1024_S320x1024_1_0_0_1_n_n.rhsNonContracting by decide)]
  rfl

/-- The block product into the zero accumulator, read at `(r, c)`: the zero contributes nothing, and the sum over the
    contraction index set, re-indexed by its one coordinate, is `∑ k, A (r, k) · B (k, c)`. -/
theorem matmul_hid_apply (A : FVec Ideal S320x1024 .bf16) (B : FVec Ideal S1024x1024 .bf16) (r : Fin 320) (c : Fin 1024) :
    matmul dot_S320x1024_S1024x1024_S320x1024_1_0_0_1_n_n none A B (constant (F := Ideal) S320x1024 .f32 0x00000000#32) (ix2 r c)
      = ∑ k : Fin 1024, A (ix2 r k) * B (ix2 k c) := by
  simp only [matmul]
  rw [Ideal.matmul_constant_zero_apply, ← Equiv.sum_comp (contrEquiv1 dot_S320x1024_S1024x1024_S320x1024_1_0_0_1_n_n 1024 rfl rfl).symm]
  refine Finset.sum_congr rfl fun k _ => ?_
  have hk := contrEquiv1_symm_val dot_S320x1024_S1024x1024_S320x1024_1_0_0_1_n_n 1024 rfl rfl k
  have el : dot_S320x1024_S1024x1024_S320x1024_1_0_0_1_n_n.lhsIdx (ix2 r c) ((contrEquiv1 dot_S320x1024_S1024x1024_S320x1024_1_0_0_1_n_n 1024 rfl rfl).symm k) = ix2 r k := funext fun a => Fin.ext (by
    match a with
    | ⟨0, _⟩ => exact lhs_hid_0 _ _
    | ⟨1, _⟩ => exact (lhs_hid_1 _ _).trans hk)
  have er : dot_S320x1024_S1024x1024_S320x1024_1_0_0_1_n_n.rhsIdx (ix2 r c) ((contrEquiv1 dot_S320x1024_S1024x1024_S320x1024_1_0_0_1_n_n 1024 rfl rfl).symm k) = ix2 k c := funext fun a => Fin.ext (by
    match a with
    | ⟨0, _⟩ => exact (rhs_hid_0 _ _).trans hk
    | ⟨1, _⟩ => exact rhs_hid_1 _ _)
  rw [el, er]

/-! ### A lane sum read at a row -/

/-- The sum of a 320 × 1024 block over its axis 1, read at row `r`: the sum of the row's 1024 entries. The zero word is the
    sum's neutral element, so no initial value appears; the source index over row `r` with coordinate `k` inserted on
    the summed axis is `(r, k)`. -/
theorem rowSum_apply (h : FVec Ideal S320x1024 .f32) (hφ : FKind.Formats .f32)
    (hacc : (0x00000000#32 : BitVec 32) = 0x00000000#32) (r : Fin 320) :
    multiReduction (F := Ideal) .add [1] S320 h 0x00000000#32 reduces_S320x1024_S320 hφ hacc (ix1 r)
      = ∑ k : Fin 1024, h (ix2 r k) := by
  refine (Ideal.multiReduction_add_single h 0x00000000#32 reduces_S320x1024_S320 hφ hacc (ix1 r)).trans ?_
  refine Finset.sum_congr rfl fun k _ => congrArg h ?_
  funext a
  apply Fin.ext
  match a with
  | ⟨0, _⟩ => rfl
  | ⟨1, _⟩ => rfl

/-! ### The stages of the body as functions of a block -/

/-- The hidden block: the token block (its change of format is the identity) times the weight block, accumulated from
    zero, plus the bias row repeated over the rows, clamped below at the zero word. -/
def hidBlock (x0 : FVec Ideal S320x1024 .f32) (x3 : FVec Ideal S1024x1024 .bf16) (x6 : FVec Ideal S1x1024 .f32) :
    FVec Ideal S320x1024 .f32 :=
  maximumf
    (addf
      (matmul dot_S320x1024_S1024x1024_S320x1024_1_0_0_1_n_n none
        (truncf .bf16 (shapeCast S320x1024 x0 shapeCasts_S320x1024_S320x1024) bitsLt_bf16_f32)
        (shapeCast S1024x1024 x3 shapeCasts_S1024x1024_S1024x1024) (constant S320x1024 .f32 0x00000000#32))
      (broadcastTo S320x1024 (shapeCast S1x1024 x6 shapeCasts_S1x1024_S1x1024) broadcasts_S1x1024_S320x1024))
    (broadcast S320x1024 (Scalar.ofBits .f32 0x00000000#32))

/-- The column of row means of a block: each row's lane sum, made a 320 × 1 column, divided by the word of 1024. -/
def meanCol (h : FVec Ideal S320x1024 .f32) : FVec Ideal S320x1 .f32 :=
  divf
    (shapeCast S320x1 (multiReduction .add [1] S320 h 0x00000000#32 reduces_S320x1024_S320 (.inl rfl) rfl)
      shapeCasts_S320_S320x1)
    (broadcast S320x1 (Scalar.ofBits .f32 0x44800000#32))

/-- A block minus its row means repeated along the rows. -/
def centred (h : FVec Ideal S320x1024 .f32) : FVec Ideal S320x1024 .f32 :=
  subf h (broadcastTo S320x1024 (meanCol h) broadcasts_S320x1_S320x1024)

/-- The normalised block: the centred block times the reciprocal root of (the row means of its squares plus ε), times
    the scale row, plus the shift row; the final change of format is the identity. -/
def lnBlock (h : FVec Ideal S320x1024 .f32) (x28 x32 : FVec Ideal S1x1024 .f32) : FVec Ideal S320x1024 .bf16 :=
  truncf .bf16
    (addf
      (mulf
        (mulf (centred h)
          (broadcastTo S320x1024
            (rsqrt (addf (meanCol (mulf (centred h) (centred h))) (broadcast S320x1 (Scalar.ofBits .f32 0x3727C5AC#32))))
            broadcasts_S320x1_S320x1024))
        (broadcastTo S320x1024 (shapeCast S1x1024 x28 shapeCasts_S1x1024_S1x1024) broadcasts_S1x1024_S320x1024))
      (broadcastTo S320x1024 (shapeCast S1x1024 x32 shapeCasts_S1x1024_S1x1024) broadcasts_S1x1024_S320x1024))
    bitsLt_bf16_f32

/-- The stored block is the normalised block of the hidden block: the body's operations in their printed order. -/
theorem k0_pay1_eq (x0 : Vec Ideal S320x1024 .f32) (x3 : Vec Ideal S1024x1024 .bf16) (x6 x28 x32 : Vec Ideal S1x1024 .f32) :
    k0_pay1 (F := Ideal) x0 x3 x6 x28 x32 = lnBlock (hidBlock x0 x3 x6) x28 x32 := rfl

/-! ### The stages read at an entry -/

/-- The reciprocal root of a block is taken entry by entry. -/
theorem rsqrt_apply {s : Shape} (a : FVec Ideal s .f32) (i : s.Idx) : rsqrt a i = Ideal.rsqrt (a i) := rfl

/-- The hidden block at `(r, j)` is hidden coordinate `j` of row `r` of the token block: the casts between equal shapes
    change nothing, the product is the sum over the shared coordinate, the bias row is read at column `j`, and the
    clamp is against the zero word. -/
theorem hidBlock_apply (x0 : FVec Ideal S320x1024 .f32) (x3 : FVec Ideal S1024x1024 .bf16) (x6 : FVec Ideal S1x1024 .f32)
    (r : Fin 320) (j : Fin 1024) :
    hidBlock x0 x3 x6 (ix2 r j)
      = Cert.Spec.hid (fun k => x0 (ix2 r k)) (fun k j' => x3 (ix2 k j')) (fun j' => x6 (ix2 (0 : Fin 1) j')) j := by
  unfold hidBlock Cert.Spec.hid
  rw [shapeCast_self, shapeCast_self, shapeCast_self, maximumf_apply, addf_apply, matmul_hid_apply,
    broadcastTo_1b_ab_apply, broadcast_apply]
  rfl

/-- The column of row means at `(r, u)` is the mean of row `r`: the row's lane sum divided by the word of 1024. -/
theorem meanCol_apply (h : FVec Ideal S320x1024 .f32) (r : Fin 320) (u : Fin 1) :
    meanCol h (ix2 r u) = Cert.Spec.rowMean (fun t => h (ix2 r t)) := by
  unfold meanCol Cert.Spec.rowMean
  rw [divf_apply, LibLayout.shapeCast_a_a1_apply, rowSum_apply, broadcast_apply]
  rfl

/-- The centred block at `(r, t)`: the entry minus the mean of its row. -/
theorem centred_apply (h : FVec Ideal S320x1024 .f32) (r : Fin 320) (t : Fin 1024) :
    centred h (ix2 r t) = h (ix2 r t) - Cert.Spec.rowMean (fun t' => h (ix2 r t')) := by
  unfold centred
  rw [subf_apply, LibLayout.broadcastTo_a1_ab_apply, meanCol_apply]

/-- The normalised block at `(r, j)` is the layer normalisation of row `r` at coordinate `j`: the variance column is the
    row mean of the squared centred entries, and the scale and shift rows are read at column `j`. -/
theorem lnBlock_apply (h : FVec Ideal S320x1024 .f32) (x28 x32 : FVec Ideal S1x1024 .f32) (r : Fin 320) (j : Fin 1024) :
    lnBlock h x28 x32 (ix2 r j)
      = Cert.Spec.lnOut (fun t => h (ix2 r t)) (fun j' => x28 (ix2 (0 : Fin 1) j')) (fun j' => x32 (ix2 (0 : Fin 1) j')) j := by
  have hsq : (fun t => mulf (centred h) (centred h) (ix2 r t))
      = fun t => (h (ix2 r t) - Cert.Spec.rowMean (fun t' => h (ix2 r t')))
          * (h (ix2 r t) - Cert.Spec.rowMean (fun t' => h (ix2 r t'))) :=
    funext fun t => by rw [mulf_apply, centred_apply]
  unfold lnBlock Cert.Spec.lnOut
  rw [shapeCast_self, shapeCast_self, truncf_apply, addf_apply, mulf_apply, mulf_apply, centred_apply,
    LibLayout.broadcastTo_a1_ab_apply, rsqrt_apply, addf_apply, meanCol_apply, broadcast_apply, hsq,
    broadcastTo_1b_ab_apply, broadcastTo_1b_ab_apply]
  rfl

/-- The stored block at `(r, j)`: the normalised hidden row of token row `r`, at coordinate `j`. -/
theorem k0_pay1_apply (x0 : Vec Ideal S320x1024 .f32) (x3 : Vec Ideal S1024x1024 .bf16) (x6 x28 x32 : Vec Ideal S1x1024 .f32)
    (r : Fin 320) (j : Fin 1024) :
    k0_pay1 (F := Ideal) x0 x3 x6 x28 x32 (ix2 r j)
      = Cert.Spec.lnRow (fun k => x0 (ix2 r k)) (fun k j' => x3 (ix2 k j')) (fun j' => x6 (ix2 (0 : Fin 1) j'))
          (fun j' => x28 (ix2 (0 : Fin 1) j')) (fun j' => x32 (ix2 (0 : Fin 1) j')) j := by
  rw [k0_pay1_eq, lnBlock_apply]
  unfold Cert.Spec.lnRow
  exact congrArg (fun g => Cert.Spec.lnOut g (fun j' => x28 (ix2 (0 : Fin 1) j')) (fun j' => x32 (ix2 (0 : Fin 1) j')) j)
    (funext fun t => hidBlock_apply x0 x3 x6 r t)

end Cert.KernelIdeal.Body

end
-- ==== Proof.Region0.lean ====
/-
  The first pallas_call's output array, as one function of the arrays it is entered with.

  The grid is 8 row tiles. At a point, the body reads rows 320·i … 320·i+319 of the (padded) token array, the whole
  first weight matrix and the three one-row parameters (bias, scale, shift), and writes the 320×1024 tile i of the
  hidden array: entry (p, q) of the tile is the normalised hidden row of token row 320·i+p, at coordinate q. So every
  tile is the restriction of ONE function of the array index, `ln`; the 8 tiles cover the 2560×1024 array, which
  therefore ends as `ln`.
-/
import proofs.«162375_j79663053406608_1_alg».proof.Proof.Gen.KernelIdeal.Frame
import proofs.«162375_j79663053406608_1_alg».proof.Proof.Body0
import proofs.«162375_j79663053406608_1_alg».proof.Proof.Spec
import Idealize.ShloMosaic.Lib.Pipeline.Value

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The normalised hidden row of every row of a 2560×1024 token array `x`, by a 1024×1024 weight and one-row bias,
    scale and shift. -/
def ln (x : S2560x1024.Idx → EReal) (w : S1024x1024.Idx → EReal) (b g s : S1x1024.Idx → EReal) : S2560x1024.Idx → EReal :=
  fun i => Cert.Spec.lnRow (fun k => x (ix2 (⟨(i 0).val, idx2_lt0 i⟩ : Fin 2560) k)) (fun k j => w (ix2 k j))
    (fun j => b (ix2 (0 : Fin 1) j)) (fun j => g (ix2 (0 : Fin 1) j)) (fun j => s (ix2 (0 : Fin 1) j)) ⟨(i 1).val, idx2_lt1 i⟩

/-- The normalised row depends only on its six arguments. -/
theorem lnRow_congr6 {x x' : Fin 1024 → EReal} {W W' : Fin 1024 → Fin 1024 → EReal} {b b' g g' s s' : Fin 1024 → EReal}
    {j j' : Fin 1024} (hx : x = x') (hW : W = W') (hb : b = b') (hg : g = g') (hs : s = s') (hj : j = j') :
    Cert.Spec.lnRow x W b g s j = Cert.Spec.lnRow x' W' b' g' s' j' := by
  subst hx hW hb hg hs hj; rfl

/-- The printed index maps over the 8 points: the token rows' tile is the output's tile, the weight and the three
    parameter rows are whole at every point, and the output's tile index stays in range. -/
theorem idx_facts : ∀ t : Fin cfg0.N,
    win0_0.index t (0 : Fin 2) = win0_5.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 7 ∧ win0_5.index t (1 : Fin 2) = 0 :=
  (by decide +kernel : ∀ t : Fin grid0.N, _)

/-- Every tile of the output is some point's. -/
theorem idx_onto : ∀ q0 : Fin 8, ∃ t : Fin cfg0.N, win0_5.index t = ![q0.val, 0] :=
  (by decide +kernel : ∀ q0 : Fin 8, ∃ t : Fin grid0.N, win0_5.index t = ![q0.val, 0])

/-- What a point writes back is its tile of `ln` of the entry arrays. -/
theorem flushed_eq (c : Dev nD) (t : Fin cfg0.N) :
    (dat0 V c).flushed 5 t = ((cfg0.win 5).blk t).view.read (Elt Ideal)
      (ln (V c main_v3) (V c main_v4) (V c main_v5) (V c main_v6) (V c main_v7)) := by
  show (cfg0.win 5).cut (grid0.coords t) ((dat0 V c).after 5 t) = _
  rw [after0_5]
  unfold out0_5
  rw [View.canon_unit_zero origin2]
  simp only [View.ld_unit_zero (S := S320x1024) origin2, View.ld_unit_zero (S := S1024x1024) origin2, View.ld_unit_zero (S := S1x1024) origin2]
  obtain ⟨e0, e1, e2, e3, e4, e5, e6, e7, e8, e9, e10, e11⟩ := idx_facts t
  funext y
  show k0_pay1 (F := Ideal) (iblk0 V c 0 t) (iblk0 V c 1 t) (iblk0 V c 2 t) (iblk0 V c 3 t) (iblk0 V c 4 t) y
      = ln (V c main_v3) (V c main_v4) (V c main_v5) (V c main_v6) (V c main_v7) (((cfg0.win 5).blk t).view.emb y)
  obtain ⟨p, q, rfl⟩ : ∃ (p : Fin 320) (q : Fin 1024), y = ix2 p q := ⟨y 0, y 1, eq_ix2 y⟩
  refine (Cert.KernelIdeal.Body.k0_pay1_apply (iblk0 V c 0 t) (iblk0 V c 1 t) (iblk0 V c 2 t) (iblk0 V c 3 t) (iblk0 V c 4 t) p q).trans ?_
  unfold ln
  refine lnRow_congr6 (funext fun k => ?_) (funext fun k => funext fun j => ?_) (funext fun j => ?_) (funext fun j => ?_)
    (funext fun j => ?_) (Fin.ext ?_)
  · -- the token block's row p is row 320·i + p of the token array
    show V c main_v3 (((cfg0.win 0).blk t).view.emb (ix2 p k)) = V c main_v3 _
    refine congrArg _ (funext fun a => Fin.ext ?_)
    match a with
    | ⟨0, _⟩ => show win0_0.index t (0 : Fin 2) * 320 + 1 * p.val = win0_5.index t (0 : Fin 2) * 320 + 1 * p.val; omega
    | ⟨1, _⟩ => show win0_0.index t (1 : Fin 2) * 1024 + 1 * k.val = k.val; omega
  · -- the weight block is the whole weight
    show V c main_v4 (((cfg0.win 1).blk t).view.emb (ix2 k j)) = V c main_v4 _
    refine congrArg _ (funext fun a => Fin.ext ?_)
    match a with
    | ⟨0, _⟩ => show win0_1.index t (0 : Fin 2) * 1024 + 1 * k.val = k.val; omega
    | ⟨1, _⟩ => show win0_1.index t (1 : Fin 2) * 1024 + 1 * j.val = j.val; omega
  · -- the bias block is the whole bias row
    show V c main_v5 (((cfg0.win 2).blk t).view.emb (ix2 (0 : Fin 1) j)) = V c main_v5 _
    refine congrArg _ (funext fun a => Fin.ext ?_)
    match a with
    | ⟨0, _⟩ => show win0_2.index t (0 : Fin 2) * 1 + 1 * 0 = 0; omega
    | ⟨1, _⟩ => show win0_2.index t (1 : Fin 2) * 1024 + 1 * j.val = j.val; omega
  · -- the scale block is the whole scale row
    show V c main_v6 (((cfg0.win 3).blk t).view.emb (ix2 (0 : Fin 1) j)) = V c main_v6 _
    refine congrArg _ (funext fun a => Fin.ext ?_)
    match a with
    | ⟨0, _⟩ => show win0_3.index t (0 : Fin 2) * 1 + 1 * 0 = 0; omega
    | ⟨1, _⟩ => show win0_3.index t (1 : Fin 2) * 1024 + 1 * j.val = j.val; omega
  · -- the shift block is the whole shift row
    show V c main_v7 (((cfg0.win 4).blk t).view.emb (ix2 (0 : Fin 1) j)) = V c main_v7 _
    refine congrArg _ (funext fun a => Fin.ext ?_)
    match a with
    | ⟨0, _⟩ => show win0_4.index t (0 : Fin 2) * 1 + 1 * 0 = 0; omega
    | ⟨1, _⟩ => show win0_4.index t (1 : Fin 2) * 1024 + 1 * j.val = j.val; omega
  · -- the tile's column q is column q of the array: the tile spans all 1024 columns
    show q.val = win0_5.index t (1 : Fin 2) * 1024 + 1 * q.val
    omega

/-- An index of the hidden array lies in a point's tile iff each coordinate lies in the tile's range on its axis. -/
theorem mem_blk (t : Fin cfg0.N) (i : S2560x1024.Idx) :
    i ∈ ((cfg0.win 5).blk t).view.set ↔ ∀ a : Fin 2, win0_5.index t a * S320x1024.size a ≤ (i a).val ∧ (i a).val < win0_5.index t a * S320x1024.size a + S320x1024.size a := by
  show i ∈ ((View.whole main_v8).slice (win0_5.rect t)).set ↔ _
  rw [View.set_slice_whole, Rect.mem_set_unit]
  exact Iff.rfl

/-- Every index of the hidden array lies in the tile of the point whose tile index is the index's row divided by 320. -/
theorem cover (i : S2560x1024.Idx) :
    ∃ t : Fin cfg0.N, (cfg0.win 5).flush t = true ∧ i ∈ ((cfg0.win 5).blk t).view.set := by
  have hi0 : (i 0).val < 2560 := (i 0).isLt
  have hi1 : (i 1).val < 1024 := (i 1).isLt
  obtain ⟨t, ht⟩ := idx_onto ⟨(i 0).val / 320, by omega⟩
  have q0 : win0_5.index t (0 : Fin 2) = (i 0).val / 320 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 320 ≤ (i 0).val ∧ (i 0).val < win0_5.index t (0 : Fin 2) * 320 + 320; omega
  | ⟨1, _⟩ => show win0_5.index t (1 : Fin 2) * 1024 ≤ (i 1).val ∧ (i 1).val < win0_5.index t (1 : Fin 2) * 1024 + 1024; omega

/-- The hidden array after the region: the normalised hidden row of every row of the token array as the region found it. -/
theorem final (c : Dev nD) :
    (dat0 V c).arrAt 5 cfg0.N = ln (V c main_v3) (V c main_v4) (V c main_v5) (V c main_v6) (V c main_v7) :=
  (dat0 V c).arrAt_eq_of_cover 5 _ (fun t _ => flushed_eq V c t) cover

end Cert.KernelIdeal.Region0

end
-- ==== Proof.Body1.lean ====
/-
  The projection kernel's stored block at an entry: a 320 × 1024 block of normalised rows times a 1024 × 3200 block of the
  second weight matrix, accumulated from zero, plus the matching stretch of the bias row repeated over the 320 rows.
  At entry (r, v) that is ∑ k, x0 (r, k) · x2 (k, v) + x5 (0, v).
-/
import proofs.«162375_j79663053406608_1_alg».proof.Proof.Gen.KernelIdeal.Skeleton
import proofs.«162375_j79663053406608_1_alg».proof.Proof.LibLayout
import Idealize.ShloMosaic.Lib.ValueLayout
import Idealize.ShloMosaic.Lib.Pipeline.Value
import Idealize.ShloMosaic.PureOps.Ideal.Laws

noncomputable section

namespace Cert.KernelIdeal.Body

open Idealize.ShloMosaic Idealize.ShloMosaic.ValueIdx Cert.KernelIdeal Cert.KernelIdeal.Gen

/-! ### The block product read at an entry

The product's dimension numbers contract the left operand's axis 1 with the right operand's axis 0 and keep the left
operand's axis 0 and the right operand's axis 1. So at output entry `(i 0, i 1)` and contraction coordinate `q` the left
operand is read at `(i 0, q)` and the right operand at `(q, i 1)`: four facts, one per operand axis. -/

/-- The left operand's row is the output's row (a kept axis). -/
theorem lhs_proj_0 (i : S320x3200.Idx) (q : dot_S320x1024_S1024x3200_S320x3200_1_0_0_1_n_n.contr.Idx) :
    (dot_S320x1024_S1024x3200_S320x3200_1_0_0_1_n_n.lhsIdx i q 0).val = (i 0).val := by
  unfold DotDims.lhsIdx
  rw [dif_neg (show ¬(0 : Fin S320x1024.rank) ∈ dot_S320x1024_S1024x3200_S320x3200_1_0_0_1_n_n.lhsBatch by decide), dif_pos (show (0 : Fin S320x1024.rank) ∈ dot_S320x1024_S1024x3200_S320x3200_1_0_0_1_n_n.lhsNonContracting by decide)]
  rfl

/-- The left operand's column is the contraction coordinate (its one contracted axis). -/
theorem lhs_proj_1 (i : S320x3200.Idx) (q : dot_S320x1024_S1024x3200_S320x3200_1_0_0_1_n_n.contr.Idx) :
    (dot_S320x1024_S1024x3200_S320x3200_1_0_0_1_n_n.lhsIdx i q 1).val = (q ⟨0, by decide⟩).val :=
  dot_S320x1024_S1024x3200_S320x3200_1_0_0_1_n_n.lhsIdx_val_of_single rfl i q

/-- The right operand's row is the contraction coordinate (its one contracted axis). -/
theorem rhs_proj_0 (i : S320x3200.Idx) (q : dot_S320x1024_S1024x3200_S320x3200_1_0_0_1_n_n.contr.Idx) :
    (dot_S320x1024_S1024x3200_S320x3200_1_0_0_1_n_n.rhsIdx i q 0).val = (q ⟨0, by decide⟩).val :=
  dot_S320x1024_S1024x3200_S320x3200_1_0_0_1_n_n.rhsIdx_val_of_single rfl i q

/-- The right operand's column is the output's column (a kept axis). -/
theorem rhs_proj_1 (i : S320x3200.Idx) (q : dot_S320x1024_S1024x3200_S320x3200_1_0_0_1_n_n.contr.Idx) :
    (dot_S320x1024_S1024x3200_S320x3200_1_0_0_1_n_n.rhsIdx i q 1).val = (i 1).val := by
  unfold DotDims.rhsIdx
  rw [dif_neg (show ¬(1 : Fin S1024x3200.rank) ∈ dot_S320x1024_S1024x3200_S320x3200_1_0_0_1_n_n.rhsBatch by decide), dif_pos (show (1 : Fin S1024x3200.rank) ∈ dot_S320x1024_S1024x3200_S320x3200_1_0_0_1_n_n.rhsNonContracting by decide)]
  rfl

/-- The block product into the zero accumulator, read at `(r, c)`: the zero contributes nothing, and the sum over the
    contraction index set, re-indexed by its one coordinate, is `∑ k, A (r, k) · B (k, c)`. -/
theorem matmul_proj_apply (A : FVec Ideal S320x1024 .bf16) (B : FVec Ideal S1024x3200 .bf16) (r : Fin 320) (c : Fin 3200) :
    matmul dot_S320x1024_S1024x3200_S320x3200_1_0_0_1_n_n none A B (constant (F := Ideal) S320x3200 .f32 0x00000000#32) (ix2 r c)
      = ∑ k : Fin 1024, A (ix2 r k) * B (ix2 k c) := by
  simp only [matmul]
  rw [Ideal.matmul_constant_zero_apply, ← Equiv.sum_comp (contrEquiv1 dot_S320x1024_S1024x3200_S320x3200_1_0_0_1_n_n 1024 rfl rfl).symm]
  refine Finset.sum_congr rfl fun k _ => ?_
  have hk := contrEquiv1_symm_val dot_S320x1024_S1024x3200_S320x3200_1_0_0_1_n_n 1024 rfl rfl k
  have el : dot_S320x1024_S1024x3200_S320x3200_1_0_0_1_n_n.lhsIdx (ix2 r c) ((contrEquiv1 dot_S320x1024_S1024x3200_S320x3200_1_0_0_1_n_n 1024 rfl rfl).symm k) = ix2 r k := funext fun a => Fin.ext (by
    match a with
    | ⟨0, _⟩ => exact lhs_proj_0 _ _
    | ⟨1, _⟩ => exact (lhs_proj_1 _ _).trans hk)
  have er : dot_S320x1024_S1024x3200_S320x3200_1_0_0_1_n_n.rhsIdx (ix2 r c) ((contrEquiv1 dot_S320x1024_S1024x3200_S320x3200_1_0_0_1_n_n 1024 rfl rfl).symm k) = ix2 k c := funext fun a => Fin.ext (by
    match a with
    | ⟨0, _⟩ => exact (rhs_proj_0 _ _).trans hk
    | ⟨1, _⟩ => exact rhs_proj_1 _ _)
  rw [el, er]

/-- The stored block at `(r, v)`. The casts are between equal shapes and change nothing; the sum of two blocks is read
    entry by entry; the product is the sum over the shared coordinate; the bias row is read at column `v` whatever the row. -/
theorem k1_pay1_apply (x0 : Vec Ideal S320x1024 .bf16) (x2 : Vec Ideal S1024x3200 .bf16) (x5 : Vec Ideal S1x3200 .f32)
    (r : Fin 320) (v : Fin 3200) :
    k1_pay1 (F := Ideal) x0 x2 x5 (ix2 r v)
      = (∑ k : Fin 1024, x0 (ix2 r k) * x2 (ix2 k v)) + x5 (ix2 (0 : Fin 1) v) := by
  unfold k1_pay1
  rw [addf_apply, shapeCast_self, shapeCast_self, shapeCast_self, matmul_proj_apply, broadcastTo_1b_ab_apply]

end Cert.KernelIdeal.Body

end
-- ==== Proof.Region1.lean ====
/-
  The second pallas_call's output array, as one function of the arrays it is entered with.

  The grid is 10 vocabulary tiles (outer) by 8 row tiles (inner). At a point, the body reads rows
  320·ri … 320·ri+319 of the hidden array, columns 3200·vi … 3200·vi+3199 of the weight and of the bias row, and
  writes the 320×3200 tile (ri, vi) of the result: entry (p, q) of the tile is the hidden row 320·ri+p times the
  weight column 3200·vi+q, plus the bias there. So every tile is the restriction of ONE function of the array index,
  `proj`: the projection of the index's row at the index's column; the 80 tiles cover the 2560×32000 array, which
  therefore ends as `proj`.
-/
import proofs.«162375_j79663053406608_1_alg».proof.Proof.Gen.KernelIdeal.Frame
import proofs.«162375_j79663053406608_1_alg».proof.Proof.Body1
import proofs.«162375_j79663053406608_1_alg».proof.Proof.Spec
import Idealize.ShloMosaic.Lib.Pipeline.Value

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The projection of every row of a 2560×1024 array `h` by a 1024×32000 weight and a one-row bias. -/
def proj (h : S2560x1024.Idx → EReal) (w : S1024x32000.Idx → EReal) (b : S1x32000.Idx → EReal) : S2560x32000.Idx → EReal :=
  fun i => Cert.Spec.projRow (fun k => h (ix2 (⟨(i 0).val, idx2_lt0 i⟩ : Fin 2560) k)) (fun k v => w (ix2 k v))
    (fun v => b (ix2 (0 : Fin 1) v)) ⟨(i 1).val, idx2_lt1 i⟩

/-- The printed index maps over the 80 points: the hidden rows' tile is the output's row tile, the weight's and the
    bias's column tile is the output's column tile, and the output's tile indices stay in range. -/
theorem idx_facts : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = win1_3.index t (1 : Fin 2)
    ∧ win1_2.index t (0 : Fin 2) = 0 ∧ win1_2.index t (1 : Fin 2) = win1_3.index t (1 : Fin 2)
    ∧ win1_3.index t (0 : Fin 2) ≤ 7 ∧ win1_3.index t (1 : Fin 2) ≤ 9 :=
  (by decide +kernel : ∀ t : Fin grid1.N, _)

/-- Every tile of the output is some point's. -/
theorem idx_onto : ∀ (q0 : Fin 8) (q1 : Fin 10), ∃ t : Fin cfg1.N, win1_3.index t = ![q0.val, q1.val] :=
  (by decide +kernel : ∀ (q0 : Fin 8) (q1 : Fin 10), ∃ t : Fin grid1.N, win1_3.index t = ![q0.val, q1.val])

/-- What a point writes back is its tile of `proj` of the entry arrays. -/
theorem flushed_eq (c : Dev nD) (t : Fin cfg1.N) :
    (dat1 V c).flushed 3 t = ((cfg1.win 3).blk t).view.read (Elt Ideal) (proj (V c main_v8) (V c main_v9) (V c main_v10)) := by
  show (cfg1.win 3).cut (grid1.coords t) ((dat1 V c).after 3 t) = _
  rw [after1_3]
  unfold out1_3
  rw [View.canon_unit_zero origin2]
  simp only [View.ld_unit_zero (S := S320x1024) origin2, View.ld_unit_zero (S := S1024x3200) origin2, View.ld_unit_zero (S := S1x3200) origin2]
  obtain ⟨e0, e1, e2, e3, e4, e5, e6, e7⟩ := idx_facts t
  funext y
  show k1_pay1 (F := Ideal) (iblk1 V c 0 t) (iblk1 V c 1 t) (iblk1 V c 2 t) y
      = proj (V c main_v8) (V c main_v9) (V c main_v10) (((cfg1.win 3).blk t).view.emb y)
  obtain ⟨p, q, rfl⟩ : ∃ (p : Fin 320) (q : Fin 3200), y = ix2 p q := ⟨y 0, y 1, eq_ix2 y⟩
  refine (Cert.KernelIdeal.Body.k1_pay1_apply (iblk1 V c 0 t) (iblk1 V c 1 t) (iblk1 V c 2 t) p q).trans ?_
  unfold proj Cert.Spec.projRow
  refine congrArg₂ (· + ·) (Finset.sum_congr rfl fun k _ => congrArg₂ (· * ·) ?_ ?_) ?_
  · -- the hidden block's row p is row 320·ri + p of the hidden array
    show V c main_v8 (((cfg1.win 0).blk t).view.emb (ix2 p k)) = V c main_v8 _
    refine congrArg _ (funext fun a => Fin.ext ?_)
    match a with
    | ⟨0, _⟩ => show win1_0.index t (0 : Fin 2) * 320 + 1 * p.val = win1_3.index t (0 : Fin 2) * 320 + 1 * p.val; omega
    | ⟨1, _⟩ => show win1_0.index t (1 : Fin 2) * 1024 + 1 * k.val = k.val; omega
  · -- the weight block's column q is column 3200·vi + q of the weight
    show V c main_v9 (((cfg1.win 1).blk t).view.emb (ix2 k q)) = V c main_v9 _
    refine congrArg _ (funext fun a => Fin.ext ?_)
    match a with
    | ⟨0, _⟩ => show win1_1.index t (0 : Fin 2) * 1024 + 1 * k.val = k.val; omega
    | ⟨1, _⟩ => show win1_1.index t (1 : Fin 2) * 3200 + 1 * q.val = win1_3.index t (1 : Fin 2) * 3200 + 1 * q.val; omega
  · -- and the bias block's entry q is entry 3200·vi + q of the bias row
    show V c main_v10 (((cfg1.win 2).blk t).view.emb (ix2 (0 : Fin 1) q)) = V c main_v10 _
    refine congrArg _ (funext fun a => Fin.ext ?_)
    match a with
    | ⟨0, _⟩ => show win1_2.index t (0 : Fin 2) * 1 + 1 * 0 = 0; omega
    | ⟨1, _⟩ => show win1_2.index t (1 : Fin 2) * 3200 + 1 * q.val = win1_3.index t (1 : Fin 2) * 3200 + 1 * q.val; omega

/-- An index of the result array lies in a point's tile iff each coordinate lies in the tile's range on its axis. -/
theorem mem_blk (t : Fin cfg1.N) (i : S2560x32000.Idx) :
    i ∈ ((cfg1.win 3).blk t).view.set ↔ ∀ a : Fin 2, win1_3.index t a * S320x3200.size a ≤ (i a).val ∧ (i a).val < win1_3.index t a * S320x3200.size a + S320x3200.size a := by
  show i ∈ ((View.whole main_v11).slice (win1_3.rect t)).set ↔ _
  rw [View.set_slice_whole, Rect.mem_set_unit]
  exact Iff.rfl

/-- Every index of the result array lies in the tile of the point whose tile indices are the index's row divided by
    320 and column divided by 3200. -/
theorem cover (i : S2560x32000.Idx) :
    ∃ t : Fin cfg1.N, (cfg1.win 3).flush t = true ∧ i ∈ ((cfg1.win 3).blk t).view.set := by
  have hi0 : (i 0).val < 2560 := (i 0).isLt
  have hi1 : (i 1).val < 32000 := (i 1).isLt
  obtain ⟨t, ht⟩ := idx_onto ⟨(i 0).val / 320, by omega⟩ ⟨(i 1).val / 3200, by omega⟩
  have q0 : win1_3.index t (0 : Fin 2) = (i 0).val / 320 := congrFun ht 0
  have q1 : win1_3.index t (1 : Fin 2) = (i 1).val / 3200 := congrFun ht 1
  refine ⟨t, flush1_3 t, ?_⟩
  rw [mem_blk]
  intro a
  match a with
  | ⟨0, _⟩ => show win1_3.index t (0 : Fin 2) * 320 ≤ (i 0).val ∧ (i 0).val < win1_3.index t (0 : Fin 2) * 320 + 320; omega
  | ⟨1, _⟩ => show win1_3.index t (1 : Fin 2) * 3200 ≤ (i 1).val ∧ (i 1).val < win1_3.index t (1 : Fin 2) * 3200 + 3200; omega

/-- The result array after the region: the projection of every row of the hidden array as the region found it. -/
theorem final (c : Dev nD) :
    (dat1 V c).arrAt 3 cfg1.N = proj (V c main_v8) (V c main_v9) (V c main_v10) :=
  (dat1 V c).arrAt_eq_of_cover 3 _ (fun t _ => flushed_eq V c t) cover

end Cert.KernelIdeal.Region1

end
-- ==== Proof.LibReshape.lean ====
/-
  General reading lemmas, over any extents, for three layout operations between a rank-3 array `[a, b, c]` and the
  matrix `[r, c]` of its `r = a·b` rows, and for a host pad that only appends rows: each result entry is one
  operand entry, at the index with the same row-major position.
-/
import Idealize.ShloMosaic.Lib.ValueLayout
import Idealize.ShloMosaic.Lib.KernelVsHost

noncomputable section

namespace Cert.LibReshape

open Idealize.ShloMosaic Idealize.ShloMosaic.ValueIdx

variable {α : Type}

/-- An `[a, b, c]` array cast to `[r, c]` reads, at `(k, e)` with `k = p·b + q`, the operand at `(p, q, e)`. -/
theorem shapeCast_abc_rc_apply {a b c r : ℕ} (x : (⟨3, ![a, b, c]⟩ : Shape).Idx → α)
    (h : (⟨3, ![a, b, c]⟩ : Shape).ShapeCasts ⟨2, ![r, c]⟩) (p : Fin a) (q : Fin b) (e : Fin c) (k : Fin r)
    (hk : k.val = p.val * b + q.val) : shapeCast ⟨2, ![r, c]⟩ x h (ix2 k e) = x (ix3 p q e) :=
  shapeCast_apply x h _ _ (by
    rw [Shape.rowMajor_val_three, Shape.rowMajor_val_two]
    show (p.val * b + q.val) * c + e.val = k.val * c + e.val
    rw [hk])

/-- An `[r, c]` matrix cast to `[a, b, c]` reads, at `(p, q, e)`, the operand at `(k, e)` with `k = p·b + q`. -/
theorem shapeCast_rc_abc_apply {a b c r : ℕ} (y : (⟨2, ![r, c]⟩ : Shape).Idx → α)
    (h : (⟨2, ![r, c]⟩ : Shape).ShapeCasts ⟨3, ![a, b, c]⟩) (p : Fin a) (q : Fin b) (e : Fin c) (k : Fin r)
    (hk : k.val = p.val * b + q.val) : shapeCast ⟨3, ![a, b, c]⟩ y h (ix3 p q e) = y (ix2 k e) :=
  shapeCast_apply y h _ _ (by
    rw [Shape.rowMajor_val_three, Shape.rowMajor_val_two]
    show k.val * c + e.val = (p.val * b + q.val) * c + e.val
    rw [hk])

/-- A host pad of an `[n, c]` matrix that only appends `d` rows reads, at a row `k` below `n`, the operand's row. -/
theorem pad_rows_apply_of_lt {n c d t : ℕ} (x : (⟨2, ![n, c]⟩ : Shape).Idx → α) {u : Shape} (v : u.Idx → α)
    (h : (⟨2, ![n, c]⟩ : Shape).Pads ![0, 0] ![d, 0] ![0, 0] ⟨2, ![t, c]⟩) (hu : 0 < u.numel)
    (k : Fin t) (e : Fin c) (k' : Fin n) (hk : k'.val = k.val) :
    pad ⟨2, ![t, c]⟩ ![0, 0] ![d, 0] ![0, 0] x v h hu (ix2 k e) = x (ix2 k' e) :=
  pad_apply_of_inside _ _ _ x v h hu (ix2 k e) (ix2 k' e) fun ax => by
    match ax with
    | ⟨0, _⟩ => show k.val = 0 + k'.val * (0 + 1); omega
    | ⟨1, _⟩ => show e.val = 0 + e.val * (0 + 1); omega

end Cert.LibReshape

end
-- ==== Proof.KernelValue.lean ====
/-
  The kernel program's result at an index, as the specification of the launch arrays.

  Entry (b, t, v) of the result is entry (77·b + t, v) of the second call's output (the slice keeps the first 2464
  rows, the reshape is row-major), which is the projection of hidden row 77·b + t at column v; that hidden row is
  the normalised hidden row of token row 77·b + t, which lies among the first 2464 rows of the padded token array and
  is therefore the gathered row (b, t). The 96 padded rows are computed by both calls and read by no result entry.
  The casts of the two weights are the identity on the extended reals, and the one-row parameter matrices read
  their vectors.
-/
import proofs.«162375_j79663053406608_1_alg».proof.Proof.HostReads
import proofs.«162375_j79663053406608_1_alg».proof.Proof.Region0
import proofs.«162375_j79663053406608_1_alg».proof.Proof.Region1
import proofs.«162375_j79663053406608_1_alg».proof.Proof.LibReshape
import proofs.«162375_j79663053406608_1_alg».proof.Proof.Spec
import Idealize.ShloMosaic.Lib.ValueLayout

noncomputable section

namespace Cert.KernelIdeal.KernelValue

open Cert.KernelIdeal Cert.KernelIdeal.Gen Cert.KernelIdeal.HostReads Idealize.ShloMosaic Idealize.ShloMosaic.TcCoe Idealize.SL.Sem
open Idealize.ShloMosaic.ValueIdx

variable (m : (ℓ : Loc nD τ sig) → Buf (Elt Ideal) ℓ) (ρ : Dev nD → PrngReg)

/-- Token row (b, t) is row 77·b + t of the 2464 gathered rows … -/
def row2464 (b : Fin 32) (t : Fin 77) : Fin 2464 := ⟨b.val * 77 + t.val, by have := b.isLt; have := t.isLt; omega⟩
/-- … and of the 2560 padded rows. -/
def row2560 (b : Fin 32) (t : Fin 77) : Fin 2560 := ⟨b.val * 77 + t.val, by have := b.isLt; have := t.isLt; omega⟩

/-- The projection depends only on its three function arguments. -/
theorem projRow_congr3 {y y' : Fin 1024 → EReal} {W W' : Fin 1024 → Fin 32000 → EReal} {b b' : Fin 32000 → EReal}
    (hy : y = y') (hW : W = W') (hb : b = b') (v : Fin 32000) :
    Cert.Spec.projRow y W b v = Cert.Spec.projRow y' W' b' v := by
  subst hy hW hb; rfl

/-- Row 77·b + t of the padded token array is the gathered row (b, t): it lies above the padding. -/
theorem tok_apply (c : Dev nD) (b : Fin 32) (t : Fin 77) (k : Fin 1024) :
    tok m ρ c (ix2 (row2560 b t) k) = rows m c (ix3 b t k) := by
  rw [tok_eq]
  refine (Cert.LibReshape.pad_rows_apply_of_lt _ _ _ _ (row2560 b t) k (row2464 b t) rfl).trans ?_
  exact Cert.LibReshape.shapeCast_abc_rc_apply _ _ b t k (row2464 b t) rfl

/-- Hidden row 77·b + t, as the second call finds it, is the normalised hidden row of the gathered row (b, t). -/
theorem hidn_apply (c : Dev nD) (b : Fin 32) (t : Fin 77) (k : Fin 1024) :
    hidn m ρ c (ix2 (row2560 b t) k)
      = Cert.Spec.lnRow (fun k' => rows m c (ix3 b t k')) (fun k' j => wgt1 m c (ix2 k' j)) (fun j => bias1 m c (ix1 j))
          (fun j => scale m c (ix1 j)) (fun j => shift m c (ix1 j)) k := by
  rw [hidn_eq, Cert.KernelIdeal.Region0.final (V5 m ρ) c]
  unfold Cert.KernelIdeal.Region0.ln
  show Cert.Spec.lnRow (fun k' => tok m ρ c (ix2 (row2560 b t) k')) (fun k' j => w1 m ρ c (ix2 k' j))
      (fun j => b1 m ρ c (ix2 (0 : Fin 1) j)) (fun j => gam m ρ c (ix2 (0 : Fin 1) j)) (fun j => bet m ρ c (ix2 (0 : Fin 1) j)) k = _
  refine Cert.KernelIdeal.Region0.lnRow_congr6 (funext fun k' => tok_apply m ρ c b t k') (funext fun k' => funext fun j => ?_)
    (funext fun j => ?_) (funext fun j => ?_) (funext fun j => ?_) rfl
  · rw [w1_eq]
  · rw [b1_eq]; exact shapeCast_a_1a_apply _ _ (0 : Fin 1) j
  · rw [gam_eq]; exact shapeCast_a_1a_apply _ _ (0 : Fin 1) j
  · rw [bet_eq]; exact shapeCast_a_1a_apply _ _ (0 : Fin 1) j

/-- The program's result at (b, t, v): the projection, at vocabulary entry v, of the normalised hidden row of the
    gathered row (b, t), over the launch arrays. -/
theorem res_apply (c : Dev nD) (b : Fin 32) (t : Fin 77) (v : Fin 32000) :
    res m ρ c (ix3 b t v)
      = Cert.Spec.projRow
          (Cert.Spec.lnRow (fun k => rows m c (ix3 b t k)) (fun k j => wgt1 m c (ix2 k j)) (fun j => bias1 m c (ix1 j))
            (fun j => scale m c (ix1 j)) (fun j => shift m c (ix1 j)))
          (fun k v' => wgt2 m c (ix2 k v')) (fun v' => bias2 m c (ix1 v')) v := by
  rw [res_eq]
  refine (Cert.LibReshape.shapeCast_rc_abc_apply _ _ b t v (row2464 b t) rfl).trans ?_
  refine (slice2_axis0_apply 0 _ _ (row2464 b t) v (row2560 b t) (by show b.val * 77 + t.val = 0 + (b.val * 77 + t.val); omega)).trans ?_
  rw [outp_eq, Cert.KernelIdeal.Region1.final (V7 m ρ) c]
  unfold Cert.KernelIdeal.Region1.proj
  show Cert.Spec.projRow (fun k => hidn m ρ c (ix2 (row2560 b t) k)) (fun k v' => w2 m ρ c (ix2 k v'))
      (fun v' => b2 m ρ c (ix2 (0 : Fin 1) v')) v = _
  refine projRow_congr3 (funext fun k => hidn_apply m ρ c b t k) (funext fun k => funext fun v' => ?_) (funext fun v' => ?_) v
  · rw [w2_eq]
  · rw [b2_eq]; exact shapeCast_a_1a_apply _ _ (0 : Fin 1) v'

end Cert.KernelIdeal.KernelValue

end
-- ==== Proof.RefSpec.lean ====
/-
  The reference program's result, read at an index, is the specification.

  The reference gathers the token rows and then works on the whole 32 × 77 × 1024 array at once: a contraction with
  the first weight over the last axis, the bias broadcast, the clamp at zero, two sums over the last axis each divided
  by 1024 (the mean and the variance), the reciprocal root, scale and shift, a contraction with the second weight and
  its bias. Read at (b, t, ·) each stage depends on row (b, t) of the gathered rows only, and is the matching stage
  of the row-wise specification. The gathered rows themselves stay one unopened function of the launch arrays.
-/
import proofs.«162375_j79663053406608_1_alg».proof.Proof.Gen.ReferenceIdeal.Read
import proofs.«162375_j79663053406608_1_alg».proof.Proof.Spec
import proofs.«162375_j79663053406608_1_alg».proof.Proof.LibLayout
import Idealize.ShloMosaic.Lib.ValueLayout
import Idealize.ShloMosaic.Lib.Pipeline.Value
import Idealize.ShloMosaic.PureOps.Ideal.Laws

noncomputable section

namespace Cert.ReferenceIdeal.RefSpec

open Idealize.ShloMosaic Idealize.ShloMosaic.ValueIdx Cert.ReferenceIdeal Cert.ReferenceIdeal.Read

/-- The hidden row of token `(b, t)`: the specification's linear layer with its clamp, applied to the gathered row. -/
def hidRow (x0 : (⟨S32x512x1024, .f32⟩ : BufTy).Contents (Elt Ideal)) (x1 : (⟨S32x77, .i32⟩ : BufTy).Contents (Elt Ideal))
    (x2 : (⟨S1024x1024, .f32⟩ : BufTy).Contents (Elt Ideal)) (x3 : (⟨S1024, .f32⟩ : BufTy).Contents (Elt Ideal))
    (b : Fin 32) (t : Fin 77) : Fin 1024 → EReal :=
  Cert.Spec.hid (fun k => val_main_v1 (F := Ideal) x0 x1 (ix3 b t k)) (fun k j => x2 (ix2 k j)) (fun j => x3 (ix1 j))

/-- The clamped linear layer at `(b, t, j)`: the contraction runs over the last axis of the gathered rows and the first
    axis of the weights, the bias is read at the last coordinate only, and the clamp compares with the zero word. -/
theorem val_main_v6_spec (x0 : (⟨S32x512x1024, .f32⟩ : BufTy).Contents (Elt Ideal)) (x1 : (⟨S32x77, .i32⟩ : BufTy).Contents (Elt Ideal))
    (x2 : (⟨S1024x1024, .f32⟩ : BufTy).Contents (Elt Ideal)) (x3 : (⟨S1024, .f32⟩ : BufTy).Contents (Elt Ideal))
    (b : Fin 32) (t : Fin 77) (j : Fin 1024) :
    val_main_v6 (F := Ideal) x0 x1 x2 x3 (ix3 b t j) = hidRow x0 x1 x2 x3 b t j := by
  have el : ∀ k : Fin 1024, lidx_main_v2 (ix3 b t j) k = ix3 b t k := fun k =>
    funext fun a => Fin.ext (by match a with | ⟨0, _⟩ => rfl | ⟨1, _⟩ => rfl | ⟨2, _⟩ => rfl)
  have er : ∀ k : Fin 1024, ridx_main_v2 (ix3 b t j) k = ix2 k j := fun k =>
    funext fun a => Fin.ext (by match a with | ⟨0, _⟩ => rfl | ⟨1, _⟩ => rfl)
  have eb : idx_main_v3 (idx_main_v4 (ix3 b t j)) = ix1 j :=
    funext fun a => Fin.ext (by match a with | ⟨0, _⟩ => rfl)
  rw [val_main_v6_apply, val_main_v5_apply, val_main_v2_apply, val_main_v4_apply, val_main_v3_apply,
    val_main_call1_v0_apply, val_main_call1_cst_apply]
  simp only [Ideal.maximumf_def, Ideal.addf_def, Ideal.ofBits_def, el, er, eb]
  rfl

/-- The row mean at `(b, t)`: the sum over the last axis starts from the zero word, which adds nothing, and is divided
    by the word of 1024. -/
theorem val_main_v10_spec (x0 : (⟨S32x512x1024, .f32⟩ : BufTy).Contents (Elt Ideal)) (x1 : (⟨S32x77, .i32⟩ : BufTy).Contents (Elt Ideal))
    (x2 : (⟨S1024x1024, .f32⟩ : BufTy).Contents (Elt Ideal)) (x3 : (⟨S1024, .f32⟩ : BufTy).Contents (Elt Ideal))
    (b : Fin 32) (t : Fin 77) :
    val_main_v10 (F := Ideal) x0 x1 x2 x3 (ix3 b t (0 : Fin 1)) = Cert.Spec.rowMean (hidRow x0 x1 x2 x3 b t) := by
  have es : ∀ k : Fin 1024, idx_main_v7 (idx_main_v8 (ix3 b t (0 : Fin 1))) k = ix3 b t k := fun k =>
    funext fun a => Fin.ext (by match a with | ⟨0, _⟩ => rfl | ⟨1, _⟩ => rfl | ⟨2, _⟩ => rfl)
  rw [val_main_v10_apply, val_main_v8_apply, val_main_v7_apply, val_main_cst_apply, val_main_v9_apply,
    val_main_cst_0_apply]
  simp only [Ideal.hostDivf_def, Ideal.ofBits_def, es, val_main_v6_spec]
  rw [Ideal.ofBits_zero_f32, zero_add]
  rfl

/-- The centred row at `(b, t, j)`: the mean is read at the unit coordinate whatever `j` is. -/
theorem val_main_v12_spec (x0 : (⟨S32x512x1024, .f32⟩ : BufTy).Contents (Elt Ideal)) (x1 : (⟨S32x77, .i32⟩ : BufTy).Contents (Elt Ideal))
    (x2 : (⟨S1024x1024, .f32⟩ : BufTy).Contents (Elt Ideal)) (x3 : (⟨S1024, .f32⟩ : BufTy).Contents (Elt Ideal))
    (b : Fin 32) (t : Fin 77) (j : Fin 1024) :
    val_main_v12 (F := Ideal) x0 x1 x2 x3 (ix3 b t j)
      = hidRow x0 x1 x2 x3 b t j - Cert.Spec.rowMean (hidRow x0 x1 x2 x3 b t) := by
  have eu : idx_main_v11 (ix3 b t j) = ix3 b t (0 : Fin 1) :=
    funext fun a => Fin.ext (by match a with | ⟨0, _⟩ => rfl | ⟨1, _⟩ => rfl | ⟨2, _⟩ => rfl)
  rw [val_main_v12_apply, val_main_v11_apply, eu, val_main_v10_spec, val_main_v6_spec]
  rfl

/-- The second broadcast of the mean gives the same centred row. -/
theorem val_main_v19_spec (x0 : (⟨S32x512x1024, .f32⟩ : BufTy).Contents (Elt Ideal)) (x1 : (⟨S32x77, .i32⟩ : BufTy).Contents (Elt Ideal))
    (x2 : (⟨S1024x1024, .f32⟩ : BufTy).Contents (Elt Ideal)) (x3 : (⟨S1024, .f32⟩ : BufTy).Contents (Elt Ideal))
    (b : Fin 32) (t : Fin 77) (j : Fin 1024) :
    val_main_v19 (F := Ideal) x0 x1 x2 x3 (ix3 b t j)
      = hidRow x0 x1 x2 x3 b t j - Cert.Spec.rowMean (hidRow x0 x1 x2 x3 b t) := by
  have eu : idx_main_v18 (ix3 b t j) = ix3 b t (0 : Fin 1) :=
    funext fun a => Fin.ext (by match a with | ⟨0, _⟩ => rfl | ⟨1, _⟩ => rfl | ⟨2, _⟩ => rfl)
  rw [val_main_v19_apply, val_main_v18_apply, eu, val_main_v10_spec, val_main_v6_spec]
  rfl

/-- The variance at `(b, t)`: the mean, taken the same way, of the squared centred row. -/
theorem val_main_v17_spec (x0 : (⟨S32x512x1024, .f32⟩ : BufTy).Contents (Elt Ideal)) (x1 : (⟨S32x77, .i32⟩ : BufTy).Contents (Elt Ideal))
    (x2 : (⟨S1024x1024, .f32⟩ : BufTy).Contents (Elt Ideal)) (x3 : (⟨S1024, .f32⟩ : BufTy).Contents (Elt Ideal))
    (b : Fin 32) (t : Fin 77) :
    val_main_v17 (F := Ideal) x0 x1 x2 x3 (ix3 b t (0 : Fin 1))
      = Cert.Spec.rowMean (fun k => (hidRow x0 x1 x2 x3 b t k - Cert.Spec.rowMean (hidRow x0 x1 x2 x3 b t))
          * (hidRow x0 x1 x2 x3 b t k - Cert.Spec.rowMean (hidRow x0 x1 x2 x3 b t))) := by
  have es : ∀ k : Fin 1024, idx_main_v14 (idx_main_v15 (ix3 b t (0 : Fin 1))) k = ix3 b t k := fun k =>
    funext fun a => Fin.ext (by match a with | ⟨0, _⟩ => rfl | ⟨1, _⟩ => rfl | ⟨2, _⟩ => rfl)
  rw [val_main_v17_apply, val_main_v15_apply, val_main_v14_apply, val_main_cst_1_apply, val_main_v16_apply,
    val_main_cst_2_apply]
  simp only [Ideal.hostDivf_def, Ideal.ofBits_def, Ideal.mulf_def, es, val_main_v13_apply, val_main_v12_spec]
  rw [Ideal.ofBits_zero_f32, zero_add]
  rfl

/-- The normalised row at `(b, t, j)`: centred entry times the reciprocal root of variance plus the offset word, times
    the scale at `j`, plus the shift at `j`. -/
theorem val_main_v30_spec (x0 : (⟨S32x512x1024, .f32⟩ : BufTy).Contents (Elt Ideal)) (x1 : (⟨S32x77, .i32⟩ : BufTy).Contents (Elt Ideal))
    (x2 : (⟨S1024x1024, .f32⟩ : BufTy).Contents (Elt Ideal)) (x3 x4 x5 : (⟨S1024, .f32⟩ : BufTy).Contents (Elt Ideal))
    (b : Fin 32) (t : Fin 77) (j : Fin 1024) :
    val_main_v30 (F := Ideal) x0 x1 x2 x3 x4 x5 (ix3 b t j)
      = Cert.Spec.lnRow (fun k => val_main_v1 (F := Ideal) x0 x1 (ix3 b t k)) (fun k j => x2 (ix2 k j))
          (fun j => x3 (ix1 j)) (fun j => x4 (ix1 j)) (fun j => x5 (ix1 j)) j := by
  have eu : idx_main_v23 (ix3 b t j) = ix3 b t (0 : Fin 1) :=
    funext fun a => Fin.ext (by match a with | ⟨0, _⟩ => rfl | ⟨1, _⟩ => rfl | ⟨2, _⟩ => rfl)
  have eg : idx_main_v25 (idx_main_v26 (ix3 b t j)) = ix1 j :=
    funext fun a => Fin.ext (by match a with | ⟨0, _⟩ => rfl)
  have eh : idx_main_v28 (idx_main_v29 (ix3 b t j)) = ix1 j :=
    funext fun a => Fin.ext (by match a with | ⟨0, _⟩ => rfl)
  rw [val_main_v30_apply, val_main_v27_apply, val_main_v24_apply, val_main_v19_spec, val_main_v23_apply, eu,
    val_main_v22_apply, val_main_v21_apply, val_main_v17_spec, val_main_v20_apply, val_main_cst_3_apply,
    val_main_v26_apply, val_main_v25_apply, eg, val_main_v29_apply, val_main_v28_apply, eh]
  simp only [Ideal.addf_def, Ideal.mulf_def, Ideal.hostUnary_rsqrt_def, Ideal.ofBits_def]
  rfl

theorem val_main_v34_spec (x0 : (⟨S32x512x1024, .f32⟩ : BufTy).Contents (Elt Ideal)) (x1 : (⟨S32x77, .i32⟩ : BufTy).Contents (Elt Ideal))
    (x2 : (⟨S1024x1024, .f32⟩ : BufTy).Contents (Elt Ideal)) (x3 x4 x5 : (⟨S1024, .f32⟩ : BufTy).Contents (Elt Ideal))
    (x6 : (⟨S1024x32000, .f32⟩ : BufTy).Contents (Elt Ideal)) (x7 : (⟨S32000, .f32⟩ : BufTy).Contents (Elt Ideal))
    (b : Fin 32) (t : Fin 77) (v : Fin 32000) :
    val_main_v34 (F := Ideal) x0 x1 x2 x3 x4 x5 x6 x7 (ix3 b t v)
      = Cert.Spec.projRow
          (Cert.Spec.lnRow (fun k => val_main_v1 (F := Ideal) x0 x1 (ix3 b t k)) (fun k j => x2 (ix2 k j))
            (fun j => x3 (ix1 j)) (fun j => x4 (ix1 j)) (fun j => x5 (ix1 j)))
          (fun k v' => x6 (ix2 k v')) (fun v' => x7 (ix1 v')) v := by
  have el : ∀ k : Fin 1024, lidx_main_v31 (ix3 b t v) k = ix3 b t k := fun k =>
    funext fun a => Fin.ext (by match a with | ⟨0, _⟩ => rfl | ⟨1, _⟩ => rfl | ⟨2, _⟩ => rfl)
  have er : ∀ k : Fin 1024, ridx_main_v31 (ix3 b t v) k = ix2 k v := fun k =>
    funext fun a => Fin.ext (by match a with | ⟨0, _⟩ => rfl | ⟨1, _⟩ => rfl)
  have eb : idx_main_v32 (idx_main_v33 (ix3 b t v)) = ix1 v :=
    funext fun a => Fin.ext (by match a with | ⟨0, _⟩ => rfl)
  rw [val_main_v34_apply, val_main_v31_apply, val_main_v33_apply, val_main_v32_apply, eb]
  simp only [Ideal.addf_def, el, er, val_main_v30_spec]
  rfl

end Cert.ReferenceIdeal.RefSpec

end
-- ==== Proof.lean ====
/-
  Masked-token language-model head: gather the masked token rows, Linear → ReLU → LayerNorm → Linear onto the
  vocabulary; a two-call tiled kernel against the plain array program, over the extended reals.

  Both programs compute, for token row (b, t) and vocabulary entry v,

      projRow (lnRow x W1 b1 γ β) W2 b2 v,     x = the gathered row (b, t),

  with hid, rowMean, lnOut, projRow as in Proof/Spec.lean: sums over 1024 coordinates, a clamp at zero, two divisions
  by 1024, one reciprocal root of (variance + ε), in one and the same order of operations on both sides. The
  differences between the programs vanish on the extended reals without any algebraic law beyond reading arrays at
  an index: the kernel's casts to a narrower float format are the identity; a block matrix product into a zero
  accumulator and the whole-array contraction are the same sum over the shared coordinate; a lane sum from the zero
  word and the array sum from the zero word are the same sum; the kernel pads the 2464 token rows to 2560 so that
  they tile by 320, and no result entry reads a padded row; the tiling (8 row tiles, then 10 × 8 vocabulary-by-row
  tiles) covers each output array, every tile being the restriction of one function of the array index. The gathering
  chain is the same operations on both sides and is carried as one unopened function. No sum is reordered and no
  factor moved, so finiteness of the inputs is never used: the precondition is assumed and not opened.

  The three frames: the two kernel programs run by their generated frame certificates, the reference by its generated
  run with the result dropped. The idealization rewrote no operation, so there is nothing to preserve. For the value
  claim the kernel program's run is stated once more with its result buffer named (Proof/RunMain.lean), that buffer
  is read back to the launch arrays (Proof/HostReads.lean, Region0, Region1, KernelValue over the bodies' payloads in
  Body0, Body1), and the reference's last stage is read at an index (Proof/RefSpec.lean).
-/
import proofs.«162375_j79663053406608_1_alg».proof.Defs
import proofs.«162375_j79663053406608_1_alg».proof.Proof.Gen.Kernel
import proofs.«162375_j79663053406608_1_alg».proof.Proof.Gen.Kernel.Skeleton
import proofs.«162375_j79663053406608_1_alg».proof.Proof.Gen.Kernel.Launch
import proofs.«162375_j79663053406608_1_alg».proof.Proof.Gen.Kernel.Points
import proofs.«162375_j79663053406608_1_alg».proof.Proof.Gen.Kernel.Frame
import proofs.«162375_j79663053406608_1_alg».proof.Proof.Gen.KernelIdeal
import proofs.«162375_j79663053406608_1_alg».proof.Proof.Gen.KernelIdeal.Skeleton
import proofs.«162375_j79663053406608_1_alg».proof.Proof.Gen.KernelIdeal.Launch
import proofs.«162375_j79663053406608_1_alg».proof.Proof.Gen.KernelIdeal.Points
import proofs.«162375_j79663053406608_1_alg».proof.Proof.Gen.KernelIdeal.Frame
import proofs.«162375_j79663053406608_1_alg».proof.Proof.Gen.ReferenceIdeal
import proofs.«162375_j79663053406608_1_alg».proof.Proof.Gen.Pre_finite_inputs
import proofs.«162375_j79663053406608_1_alg».proof.Proof.Gen.ReferenceIdeal.Run
import proofs.«162375_j79663053406608_1_alg».proof.Proof.Gen.ReferenceIdeal.Read
import proofs.«162375_j79663053406608_1_alg».proof.Proof.RunMain
import proofs.«162375_j79663053406608_1_alg».proof.Proof.KernelValue
import proofs.«162375_j79663053406608_1_alg».proof.Proof.RefSpec
import Idealize.ShloMosaic.Adequacy
import Idealize.ShloMosaic.Init

noncomputable section

namespace Cert.Proof

open Idealize.ShloMosaic Idealize.SL.Sem Idealize.ShloMosaic.ValueIdx

/-- The printed kernel program runs and keeps its arguments: its generated frame certificate. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and keeps its arguments: its generated run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the eight arguments both programs end with the same result array: at (b, t, v) each
    holds the projection, at vocabulary entry v, of the normalised hidden row of the gathered token row (b, t). -/
theorem algebraic : Cert.algebraic_KernelIdeal_ReferenceIdeal := by
  intro m ρ m' ρ' _ hagree
  refine ⟨fun c => Cert.KernelIdeal.Gen.W9 m ρ c (Proc.devRef .tc Cert.KernelIdeal.main_v13),
    Cert.KernelIdeal.Gen.run_main m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq]
  obtain ⟨h0, h1, h2, h3, h4, h5, h6, h7⟩ := hagree c
  rw [h0, h1, h2, h3, h4, h5, h6, h7]
  funext i
  obtain ⟨b, t, v, rfl⟩ : ∃ (b : Fin 32) (t : Fin 77) (v : Fin 32000), i = ix3 b t v := ⟨i 0, i 1, i 2, eq_ix3 i⟩
  rw [Cert.ReferenceIdeal.RefSpec.val_main_v34_spec]
  exact (Cert.KernelIdeal.KernelValue.res_apply m ρ c b t v).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
